-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg4 : FVec F S64 .f32) (main_arg5 : IVec S2x640000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg5 main_v24
  let main_c_9 : IVec S_ 1 := constantI S_ 1 1#1
  let main_v26 : IVec S_ 1 := (fun x v => Host.reduce IntOp.andi x v reducesTo_S2x640000_S_d0_1 h_S_) main_v25 main_c_9
  let main_v27 : IVec S_ 1 := andi main_v23 main_v26
  let main_c_10 : IVec S_ 32 := constantI S_ 32 10000#32
  let main_v28 : IVec S2x640000 32 := broadcastInDim S2x640000 ![] bcast_S_S2x640000 main_c_10
  let main_v29 : IVec S2x640000 1 := cmpi .slt main_arg5 main_v28
  let main_c_11 : IVec S_ 1 := constantI S_ 1 1#1
  let main_v30 : IVec S_ 1 := (fun x v => Host.reduce IntOp.andi x v reducesTo_S2x640000_S_d0_1 h_S_) main_v29 main_c_11
  let main_v31 : IVec S_ 1 := andi main_v27 main_v30
  main_v31

def fn {F : FTy → Type} [FloatOps F] (main_arg0 : FVec F S10000x128 .f32) (main_arg1 : FVec F S128x128 .f32) (main_arg2 : FVec F S128 .f32) (main_arg3 : FVec F S128x64 .f32) (main_arg4 : FVec F S64 .f32) (main_arg5 : IVec S2x640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S512x128 : Shape := ⟨2, ![512, 128]⟩
abbrev S1x128 : Shape := ⟨2, ![1, 128]⟩
abbrev S10240x64 : Shape := ⟨2, ![10240, 64]⟩
abbrev S512x10240 : Shape := ⟨2, ![512, 10240]⟩
abbrev S512x64 : Shape := ⟨2, ![512, 64]⟩
abbrev S1x64 : Shape := ⟨2, ![1, 64]⟩
abbrev S10000x64 : Shape := ⟨2, ![10000, 64]⟩

abbrev nBuf : Space → Nat
  | .hbm => 76
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x640000, .i32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x1, .i32⟩
  | .hbm, ⟨64, _⟩ => ⟨S650000x2, .i32⟩
  | .hbm, ⟨65, _⟩ => ⟨S10240x10240, .f32⟩
  | .hbm, ⟨66, _⟩ => ⟨S10240x10240, .bf16⟩
  | .hbm, ⟨67, _⟩ => ⟨S_, .i32⟩
  | .hbm, ⟨68, _⟩ => ⟨S_, .f32⟩
  | .hbm, ⟨69, _⟩ => ⟨S10240x128, .f32⟩
  | .hbm, ⟨70, _⟩ => ⟨S10240x128, .bf16⟩
  | .hbm, ⟨71, _⟩ => ⟨S1x128, .f32⟩
  | .hbm, ⟨72, _⟩ => ⟨S10240x64, .bf16⟩
  | .hbm, ⟨73, _⟩ => ⟨S1x64, .f32⟩
  | .hbm, ⟨74, _⟩ => ⟨S10240x64, .f32⟩
  | .hbm, ⟨75, _⟩ => ⟨S10000x64, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S512x128, .bf16⟩
  | .local _ .vmem, ⟨4, _⟩ => ⟨S512x128, .bf16⟩
  | .local _ .vmem, ⟨5, _⟩ => ⟨S512x10240, .bf16⟩
  | .local _ .vmem, ⟨6, _⟩ => ⟨S512x10240, .bf16⟩
  | .local _ .vmem, ⟨7, _⟩ => ⟨S10240x128, .bf16⟩
  | .local _ .vmem, ⟨8, _⟩ => ⟨S1x128, .f32⟩
  | .local _ .vmem, ⟨9, _⟩ => ⟨S128x64, .f32⟩
  | .local _ .vmem, ⟨10, _⟩ => ⟨S512x64, .bf16⟩
  | .local _ .vmem, ⟨11, _⟩ => ⟨S512x64, .bf16⟩
  | .local _ .vmem, ⟨12, _⟩ => ⟨S512x10240, .bf16⟩
  | .local _ .vmem, ⟨13, _⟩ => ⟨S512x10240, .bf16⟩
  | .local _ .vmem, ⟨14, _⟩ => ⟨S10240x64, .bf16⟩
  | .local _ .vmem, ⟨15, _⟩ => ⟨S1x64, .f32⟩
  | .local _ .vmem, ⟨16, _⟩ => ⟨S512x64, .f32⟩
  | .local _ .vmem, ⟨17, _⟩ => ⟨S512x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  packedbf16_S512x128_S512x128_0_0 : (Rect.unit (s := S512x128) ![0, 0] S512x128.size inb_S512x128_S512x128_0_0).PackedRows (EltTy.packing .bf16)
  shapeCasts_S128_S1x128 : S128.ShapeCasts S1x128
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x128_S10240x128_0_0 : ∀ a, (![0, 0] : Fin 2 → Nat) a + S10240x128.size a ≤ S10240x128.size a
  h_S10240x128 : 0 < S10240x128.numel
  shapeCasts_S10240x128_S10240x128 : S10240x128.ShapeCasts S10240x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S512x64_S512x64_0_0 : ∀ a, (![0, 0] : Fin 2 → Nat) a + S512x64.size a ≤ S512x64.size a
  h_S512x64 : 0 < S512x64.numel
  packedbf16_S512x64_S512x64_0_0 : (Rect.unit (s := S512x64) ![0, 0] S512x64.size inb_S512x64_S512x64_0_0).PackedRows (EltTy.packing .bf16)
  shapeCasts_S64_S1x64 : S64.ShapeCasts S1x64
  inb_S10240x64_S10240x64_0_0 : ∀ a, (![0, 0] : Fin 2 → Nat) a + S10240x64.size a ≤ S10240x64.size a
  h_S10240x64 : 0 < S10240x64.numel
  shapeCasts_S10240x64_S10240x64 : S10240x64.ShapeCasts S10240x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  slices_S10240x64_S10000x64_0_0 : S10240x64.Slices ![0, 0] S10000x64
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  dot_S512x128_S128x128_S512x128_1_0_0_1_n_n_wf : DotDims.WF S512x128 S128x128 S512x128 [1] [0] [0] [1] [] []
  dot_S512x10240_S10240x128_S512x128_1_0_0_1_n_n_wf : DotDims.WF S512x10240 S10240x128 S512x128 [1] [0] [0] [1] [] []
  dot_S512x128_S128x64_S512x64_1_0_0_1_n_n_wf : DotDims.WF S512x128 S128x64 S512x64 [1] [0] [0] [1] [] []
  dot_S512x10240_S10240x64_S512x64_1_0_0_1_n_n_wf : DotDims.WF S512x10240 S10240x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S10240x128.size a
  hwx0_0 : ∀ i : grid0.Coords, EltTy.bits .f32 = 32 ∨ (Rect.block (s := S10240x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S10240x128.size a
  hwx0_2 : ∀ i : grid0.Coords, EltTy.bits .bf16 = 32 ∨ (Rect.block (s := S10240x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x128.size a ≤ S10240x128.size a
  hwx1_1 : ∀ i : grid1.Coords, EltTy.bits .bf16 = 32 ∨ (Rect.block (s := S10240x128) S10240x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S10240x64.size a
  hwx1_4 : ∀ i : grid1.Coords, EltTy.bits .bf16 = 32 ∨ (Rect.block (s := S10240x64) S512x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x10240.size a ≤ S10240x10240.size a
  hwx2_0 : ∀ i : grid2.Coords, EltTy.bits .bf16 = 32 ∨ (Rect.block (s := S10240x10240) S512x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x64.size a ≤ S10240x64.size a
  hwx2_1 : ∀ i : grid2.Coords, EltTy.bits .bf16 = 32 ∨ (Rect.block (s := S10240x64) S10240x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S10240x64.size a
  hwx2_3 : ∀ i : grid2.Coords, EltTy.bits .f32 = 32 ∨ (Rect.block (s := S10240x64) S512x64.size (cc2_transform_3 i) (hinb2_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x10240_S10240x128_S512x128_1_0_0_1_n_n : DotDims S512x10240 S10240x128 S512x128 where
  lhsContracting := [1]
  rhsContracting := [0]
  lhsNonContracting := [0]
  rhsNonContracting := [1]
  lhsBatch := []
  rhsBatch := []
  wf := dot_S512x10240_S10240x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x10240_S10240x64_S512x64_1_0_0_1_n_n : DotDims S512x10240 S10240x64 S512x64 where
  lhsContracting := [1]
  rhsContracting := [0]
  lhsNonContracting := [0]
  rhsNonContracting := [1]
  lhsBatch := []
  rhsBatch := []
  wf := dot_S512x10240_S10240x64_S512x64_1_0_0_1_n_n_wf

abbrev win0_0 : Pipeline.Window sig grid0 :=
  Pipeline.Window.ofSpec (Memref.whole main_v46) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10240x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S512x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S10240x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x640000 : Shape := ⟨2, ![2, 640000]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x640000, .i32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S10000x128, .f32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S10000, .f32⟩
  | .hbm, ⟨18, _⟩ => ⟨S650000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S10000x128, .f32⟩
  | .hbm, ⟨61, _⟩ => ⟨S650000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x64, .f32⟩
  | .hbm, ⟨70, _⟩ => ⟨S_, .f32⟩
  | .hbm, ⟨71, _⟩ => ⟨S650000, .f32⟩
  | .hbm, ⟨72, _⟩ => ⟨S_, .f32⟩
  | .hbm, ⟨73, _⟩ => ⟨S10000, .f32⟩
  | .hbm, ⟨74, _⟩ => ⟨S650000x1, .i32⟩
  | .hbm, ⟨75, _⟩ => ⟨S10000, .f32⟩
  | .hbm, ⟨76, _⟩ => ⟨S_, .f32⟩
  | .hbm, ⟨77, _⟩ => ⟨S10000, .f32⟩
  | .hbm, ⟨78, _⟩ => ⟨S10000, .i1⟩
  | .hbm, ⟨79, _⟩ => ⟨S10000, .f32⟩
  | .hbm, ⟨80, _⟩ => ⟨S_, .f32⟩
  | .hbm, ⟨81, _⟩ => ⟨S_, .f32⟩
  | .hbm, ⟨82, _⟩ => ⟨S10000, .f32⟩
  | .hbm, ⟨83, _⟩ => ⟨S10000, .f32⟩
  | .hbm, ⟨84, _⟩ => ⟨S_, .i32⟩
  | .hbm, ⟨85, _⟩ => ⟨S650000, .i32⟩
  | .hbm, ⟨86, _⟩ => ⟨S650000, .i1⟩
  | .hbm, ⟨87, _⟩ => ⟨S_, .i32⟩
  | .hbm, ⟨88, _⟩ => ⟨S650000, .i32⟩
  | .hbm, ⟨89, _⟩ => ⟨S650000, .i32⟩
  | .hbm, ⟨90, _⟩ => ⟨S650000, .i32⟩
  | .hbm, ⟨91, _⟩ => ⟨S650000x1, .i32⟩
  | .hbm, ⟨92, _⟩ => ⟨S650000, .f32⟩
  | .hbm, ⟨93, _⟩ => ⟨S_, .i32⟩
  | .hbm, ⟨94, _⟩ => ⟨S650000, .i32⟩
  | .hbm, ⟨95, _⟩ => ⟨S650000, .i1⟩
  | .hbm, ⟨96, _⟩ => ⟨S_, .i32⟩
  | .hbm, ⟨97, _⟩ => ⟨S650000, .i32⟩
  | .hbm, ⟨98, _⟩ => ⟨S650000, .i32⟩
  | .hbm, ⟨99, _⟩ => ⟨S650000, .i32⟩
  | .hbm, ⟨100, _⟩ => ⟨S650000x1, .i32⟩
  | .hbm, ⟨101, _⟩ => ⟨S650000, .f32⟩
  | .hbm, ⟨102, _⟩ => ⟨S650000, .f32⟩
  | .hbm, ⟨103, _⟩ => ⟨S_, .i32⟩
  | .hbm, ⟨104, _⟩ => ⟨S650000, .i32⟩
  | .hbm, ⟨105, _⟩ => ⟨S650000, .i1⟩
  | .hbm, ⟨106, _⟩ => ⟨S_, .i32⟩
  | .hbm, ⟨107, _⟩ => ⟨S650000, .i32⟩
  | .hbm, ⟨108, _⟩ => ⟨S650000, .i32⟩
  | .hbm, ⟨109, _⟩ => ⟨S650000, .i32⟩
  | .hbm, ⟨110, _⟩ => ⟨S650000x1, .i32⟩
  | .hbm, ⟨111, _⟩ => ⟨S650000x64, .f32⟩
  | .hbm, ⟨112, _⟩ => ⟨S650000x1, .f32⟩
  | .hbm, ⟨113, _⟩ => ⟨S650000x64, .f32⟩
  | .hbm, ⟨114, _⟩ => ⟨S650000x64, .f32⟩
  | .hbm, ⟨115, _⟩ => ⟨S_, .f32⟩
  | .hbm, ⟨116, _⟩ => ⟨S10000x64, .f32⟩
  | .hbm, ⟨117, _⟩ => ⟨S650000x1, .i32⟩
  | .hbm, ⟨118, _⟩ => ⟨S10000x64, .f32⟩
  | .hbm, ⟨119, _⟩ => ⟨S1x64, .f32⟩
  | .hbm, ⟨120, _⟩ => ⟨S10000x64, .f32⟩
  | .hbm, ⟨121, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x64_0_1 : S650000x1.BroadcastsInDim S650000x64 (![0, 1] : Fin 2 → Fin S650000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x64_S10000x64_1_0_0_1_n_n_wf : DotDims.WF S10000x128 S128x64 S10000x64 [1] [0] [0] [1] [] []
  gather_S10000x64_S650000x1_S650000x64_1_0_n_n_0_1_164_wf : GatherDims.WF S10000x64 S650000x1 S650000x64 [1] [0] [] [0] [] 1 ![1, 64]
  scatter_S10000x64_S650000x1_S650000x64_1_0_0_1_wf : ScatterDims.WF S10000x64 S650000x1 S650000x64 [1] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S650000x1_S650000x64_1_0_n_n_0_1_164 : GatherDims S10000x64 S650000x1 S650000x64 where
  offsetDims := [1]
  collapsedSliceDims := [0]
  operandBatchingDims := []
  startIndicesBatchingDims := []
  startIndexMap := [0]
  indexVectorDim := 1
  sliceSizes := ![1, 64]
  wf := gather_S10000x64_S650000x1_S650000x64_1_0_n_n_0_1_164_wf
def scatter_S10000x64_S650000x1_S650000x64_1_0_0_1 : ScatterDims S10000x64 S650000x1 S650000x64 where
  updateWindowDims := [1]
  insertedWindowDims := [0]
  scatterDimsToOperandDims := [0]
  indexVectorDim := 1
  wf := scatter_S10000x64_S650000x1_S650000x64_1_0_0_1_wf

class Facts : Prop extends Facts₀ where

variable [Facts]
-- ==== Proof.KWalk.lean ====
/-
  The kernel program's buffers at its segment boundaries, walked back to where each was written.
-/
import proofs.«402538_j62483184222721_2_alg».proof.Proof.Gen.KernelIdeal.Frame
import Idealize.ShloMosaic.Lib.StableHlo.Run

set_option maxRecDepth 16384

noncomputable section

open scoped BigOperators

namespace Cert.KernelIdeal.KWalk

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! The buffer contents at the segment boundaries (`W0` … `W10` of the generated frame), read at the buffers the three
    regions and the last host operation take their operands from: each is walked back to where it was written. -/

/-- A stretch of host operations none of which writes the buffer leaves it as it was: each operation writes one
    buffer, and that buffer is another one. -/
local macro "host_keeps" : tactic =>
  `(tactic| (refine StableHlo.after_of_forall_not_mem _ _ (List.forall_iff_forall_mem.mp ?_)
             simp only [hostOps0, hostOps0_1, hostOps0_2, hostOps0_3, hostOps1, hostOps2, hostOps3,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The arguments up to region 0's entry: no host operation before it writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by host_keeps
    _ = W2 m ρ c (Proc.devRef .tc main_arg1) := by host_keeps
    _ = W1 m ρ c (Proc.devRef .tc main_arg1) := by host_keeps
    _ = W0 m ρ c (Proc.devRef .tc main_arg1) := by host_keeps
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by host_keeps
    _ = W2 m ρ c (Proc.devRef .tc main_arg2) := by host_keeps
    _ = W1 m ρ c (Proc.devRef .tc main_arg2) := by host_keeps
    _ = W0 m ρ c (Proc.devRef .tc main_arg2) := by host_keeps
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by host_keeps
    _ = W2 m ρ c (Proc.devRef .tc main_arg3) := by host_keeps
    _ = W1 m ρ c (Proc.devRef .tc main_arg3) := by host_keeps
    _ = W0 m ρ c (Proc.devRef .tc main_arg3) := by host_keeps
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by host_keeps
    _ = W2 m ρ c (Proc.devRef .tc main_arg4) := by host_keeps
    _ = W1 m ρ c (Proc.devRef .tc main_arg4) := by host_keeps
    _ = W0 m ρ c (Proc.devRef .tc main_arg4) := by host_keeps
    _ = m ((c : Thread nD τ).loc main_arg4) := rfl

/-- The integer zero that the padding converts: the last host operation before the padding writes it. -/
theorem W3_main_c_11 (c : Dev nD) :
    (W3 m ρ c (Proc.devRef .tc main_c_11) : (⟨S_, .i32⟩ : BufTy).Contents (Elt F)) = constantI S_ 32 0#32 := by
  show StableHlo.after hostOps0_2 (W2 m ρ c) (Proc.devRef .tc main_c_11) = _
  generalize W2 m ρ c = V
  after_results

/-! ## The operands of the regions and of the last host operation -/

/-- The dense adjacency reaches region 1 as the host wrote it (no region and no later host operation writes it). -/
theorem adj_at_region1 (c : Dev nD) : W6 m ρ c (Proc.devRef .tc main_v45) = W4 m ρ c (Proc.devRef .tc main_v45) :=
  calc W6 m ρ c (Proc.devRef .tc main_v45)
    _ = W5 m ρ c (Proc.devRef .tc main_v45) := by host_keeps
    _ = W4 m ρ c (Proc.devRef .tc main_v45) := W5_of_ne m ρ c main_v45 (by decide)
/-- … and region 2 likewise. -/
theorem adj_at_region2 (c : Dev nD) : W8 m ρ c (Proc.devRef .tc main_v45) = W4 m ρ c (Proc.devRef .tc main_v45) :=
  calc W8 m ρ c (Proc.devRef .tc main_v45)
    _ = W7 m ρ c (Proc.devRef .tc main_v45) := by host_keeps
    _ = W6 m ρ c (Proc.devRef .tc main_v45) := (W7_arr m ρ c 0).trans (((dat1 (V6 m ρ) c).arrAt_in 0 rfl _).trans (A_eq1 (V6 m ρ) c 0))
    _ = W4 m ρ c (Proc.devRef .tc main_v45) := adj_at_region1 m ρ c
/-- Region 1 reads region 0's output array. -/
theorem feat_at_region1 (c : Dev nD) : W6 m ρ c (Proc.devRef .tc main_v47) = (dat0 (V4 m ρ) c).arrAt 2 cfg0.N :=
  calc W6 m ρ c (Proc.devRef .tc main_v47)
    _ = W5 m ρ c (Proc.devRef .tc main_v47) := by host_keeps
    _ = (dat0 (V4 m ρ) c).arrAt 2 cfg0.N := W5_arr m ρ c 2
/-- Region 2 reads region 1's output array. -/
theorem feat_at_region2 (c : Dev nD) : W8 m ρ c (Proc.devRef .tc main_v49) = (dat1 (V6 m ρ) c).arrAt 4 cfg1.N :=
  calc W8 m ρ c (Proc.devRef .tc main_v49)
    _ = W7 m ρ c (Proc.devRef .tc main_v49) := by host_keeps
    _ = (dat1 (V6 m ρ) c).arrAt 4 cfg1.N := W7_arr m ρ c 4
/-- The last host operation reads region 2's output array. -/
theorem out_at_exit (c : Dev nD) : W9 m ρ c (Proc.devRef .tc main_v51) = (dat2 (V8 m ρ) c).arrAt 3 cfg2.N :=
  W9_arr m ρ c 3

/-- Region 1's bias row is the first bias reshaped to one row. -/
theorem bias_at_region1 (c : Dev nD) :
    W6 m ρ c (Proc.devRef .tc main_v48) = shapeCast S1x128 (m ((c : Thread nD τ).loc main_arg2)) shapeCasts_S128_S1x128 := by
  have written : W6 m ρ c (Proc.devRef .tc main_v48)
      = shapeCast S1x128 (W5 m ρ c (Proc.devRef .tc main_arg2)) shapeCasts_S128_S1x128 := by
    show StableHlo.after hostOps1 (W5 m ρ c) (Proc.devRef .tc main_v48) = _
    generalize W5 m ρ c = V
    after_results
    rfl
  have operand : W5 m ρ c (Proc.devRef .tc main_arg2) = m ((c : Thread nD τ).loc main_arg2) :=
    (W5_of_ne m ρ c main_arg2 (by decide)).trans (W4_main_arg2 m ρ c)
  rw [written, operand]
/-- Region 2's bias row is the second bias reshaped to one row. -/
theorem bias_at_region2 (c : Dev nD) :
    W8 m ρ c (Proc.devRef .tc main_v50) = shapeCast S1x64 (m ((c : Thread nD τ).loc main_arg4)) shapeCasts_S64_S1x64 := by
  have written : W8 m ρ c (Proc.devRef .tc main_v50)
      = shapeCast S1x64 (W7 m ρ c (Proc.devRef .tc main_arg4)) shapeCasts_S64_S1x64 := by
    show StableHlo.after hostOps2 (W7 m ρ c) (Proc.devRef .tc main_v50) = _
    generalize W7 m ρ c = V
    after_results
    rfl
  have operand : W7 m ρ c (Proc.devRef .tc main_arg4) = m ((c : Thread nD τ).loc main_arg4) :=
    calc W7 m ρ c (Proc.devRef .tc main_arg4)
      _ = W6 m ρ c (Proc.devRef .tc main_arg4) := W7_of_ne m ρ c main_arg4 (by decide)
      _ = W5 m ρ c (Proc.devRef .tc main_arg4) := by host_keeps
      _ = W4 m ρ c (Proc.devRef .tc main_arg4) := W5_of_ne m ρ c main_arg4 (by decide)
      _ = m ((c : Thread nD τ).loc main_arg4) := W4_main_arg4 m ρ c
  rw [written, operand]
/-- Region 1's second weight matrix is the argument. -/
theorem w2_at_region1 (c : Dev nD) : W6 m ρ c (Proc.devRef .tc main_arg3) = m ((c : Thread nD τ).loc main_arg3) :=
  calc W6 m ρ c (Proc.devRef .tc main_arg3)
    _ = W5 m ρ c (Proc.devRef .tc main_arg3) := by host_keeps
    _ = W4 m ρ c (Proc.devRef .tc main_arg3) := W5_of_ne m ρ c main_arg3 (by decide)
    _ = m ((c : Thread nD τ).loc main_arg3) := W4_main_arg3 m ρ c
/-- Region 0's weight matrix is the argument. -/
theorem w1_at_region0 (c : Dev nD) : W4 m ρ c (Proc.devRef .tc main_arg1) = m ((c : Thread nD τ).loc main_arg1) :=
  W4_main_arg1 m ρ c
/-- Region 0's features are the node features padded with 240 rows of the converted integer zero. -/
theorem xpad_at_region0 (c : Dev nD) :
    W4 m ρ c (Proc.devRef .tc main_v46)
      = pad S10240x128 ![0, 0] ![240, 0] ![0, 0] (m ((c : Thread nD τ).loc main_arg0)) (sitofp (F := F) .f32 (constantI S_ 32 0#32))
          pads_S10000x128_S10240x128_02400_000 h_S_ := by
  have written : W4 m ρ c (Proc.devRef .tc main_v46)
      = pad S10240x128 ![0, 0] ![240, 0] ![0, 0] (W3 m ρ c (Proc.devRef .tc main_arg0))
          (sitofp (F := F) .f32 (W3 m ρ c (Proc.devRef .tc main_c_11) : (⟨S_, .i32⟩ : BufTy).Contents (Elt F)))
          pads_S10000x128_S10240x128_02400_000 h_S_ := by
    show StableHlo.after hostOps0_3 (W3 m ρ c) (Proc.devRef .tc main_v46) = _
    generalize W3 m ρ c = V
    after_results
    rfl
  rw [written, W3_main_arg0, W3_main_c_11]
/-- The result is the first 10000 rows of region 2's output array. -/
theorem result_at_exit (c : Dev nD) :
    W10 m ρ c (Proc.devRef .tc main_v52)
      = extractStridedSlice S10000x64 ![0, 0] (W9 m ρ c (Proc.devRef .tc main_v51)) slices_S10240x64_S10000x64_0_0 := by
  show StableHlo.after hostOps3 (W9 m ρ c) (Proc.devRef .tc main_v52) = _
  generalize W9 m ρ c = V
  after_results

end Cert.KernelIdeal.KWalk

end
-- ==== Proof.Spec.lean ====
/-
  The two-layer graph convolution as ONE function of the argument arrays, over the extended reals, and the
  algebra that joins a dense-adjacency product to an edge-by-edge aggregation.

  Nodes are 0 … 9999; an edge list of 650000 words gives each edge a source and a destination node (`nodeOf`:
  the word read signed and clamped into the node range) and a weight `w e`. One layer is
      out[n, f] = (∑ over edges e with destination n of h[source e, f] · w e) + b[f],   h = a · W,
  and the network is layer 1, a maximum with zero, layer 2.

  A dense adjacency A[n, c] = ∑ over edges e from c to n of w e turns the aggregation into the matrix product
  ∑ c, A[n, c] · h[c, f]. The two agree when every weight and every entry of h is a real number: the step is
  (∑ e, w e) · h = ∑ e, w e · h, which the extended reals do not grant at infinities.
-/
import Idealize.ShloMosaic.PureOps.Ideal
import Idealize.ShloMosaic.Lib.ValueIdx

noncomputable section

open scoped BigOperators

namespace Cert.Gcn

open Idealize.ShloMosaic Idealize.ShloMosaic.ValueIdx

/-! ## Real entries -/

/-- An extended real that is a real number. -/
def IsReal (x : EReal) : Prop := ∃ r : ℝ, x = (r : EReal)

theorem isReal_zero : IsReal 0 := ⟨0, rfl⟩
theorem isReal_coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A sum of real numbers times a real number, term by term. -/
theorem sum_mul_of_isReal {ι : Type*} (s : Finset ι) (f : ι → EReal) (h : EReal) (hf : ∀ i ∈ s, IsReal (f i)) (hh : IsReal h) :
    (∑ i ∈ s, f i) * h = ∑ i ∈ s, f i * h := by
  classical
  obtain ⟨r, rfl⟩ := hh
  induction s using Finset.induction_on with
  | empty => simp
  | insert a s ha ih =>
    rw [Finset.sum_insert ha, Finset.sum_insert ha, ← ih fun i hi => hf i (Finset.mem_insert_of_mem hi)]
    obtain ⟨x, hx⟩ := hf a (Finset.mem_insert_self a s)
    obtain ⟨y, hy⟩ := IsReal.sum s f fun i hi => hf i (Finset.mem_insert_of_mem hi)
    rw [hx, hy, ← EReal.coe_add, ← EReal.coe_mul, ← EReal.coe_mul, ← EReal.coe_mul, ← EReal.coe_add, add_mul]

/-- THE LAW. A dense adjacency row (per column `c`, the weights of the edges of `S` whose column is `c`, summed) times a
    real column vector is the edge-by-edge sum. -/
theorem dense_eq_edges {E C : Type*} [Fintype C] [DecidableEq C] (S : Finset E) (col : E → C) (w : E → EReal) (h : C → EReal)
    (hw : ∀ e ∈ S, IsReal (w e)) (hh : ∀ c, IsReal (h c)) :
    ∑ c : C, (∑ e ∈ S.filter (fun e => col e = c), w e) * h c = ∑ e ∈ S, h (col e) * w e := by
  classical
  have h1 : ∀ c : C, (∑ e ∈ S.filter (fun e => col e = c), w e) * h c = ∑ e ∈ S.filter (fun e => col e = c), h (col e) * w e := by
    intro c
    rw [sum_mul_of_isReal _ _ _ (fun e he => hw e (Finset.mem_filter.mp he).1) (hh c)]
    refine Finset.sum_congr rfl fun e he => ?_
    rw [(Finset.mem_filter.mp he).2, mul_comm]
  simp_rw [h1]
  exact Finset.sum_fiberwise_of_maps_to (fun e _ => Finset.mem_univ (col e)) _

/-! ## The network -/

/-- The node a 32-bit word names: read signed, clamped into the node range. -/
def nodeOf (v : BitVec 32) : Fin 10000 := ⟨min v.toInt.toNat 9999, by omega⟩

theorem nodeOf_val_of_range {v : BitVec 32} (h0 : 0 ≤ v.toInt) (h1 : v.toInt < 10000) : ((nodeOf v).val : ℤ) = v.toInt := by
  show ((min v.toInt.toNat 9999 : ℕ) : ℤ) = v.toInt
  omega

/-- The edge list's index set. -/
abbrev Edge : Type := (⟨1, ![650000]⟩ : Shape).Idx

/-- A dense layer `a · W`, entry by entry. -/
def lin {N K M : ℕ} (a : (⟨2, ![N, K]⟩ : Shape).Idx → EReal) (W : (⟨2, ![K, M]⟩ : Shape).Idx → EReal) :
    (⟨2, ![N, M]⟩ : Shape).Idx → EReal :=
  fun i => ∑ k : Fin K, a (ix2 (n0 := N) (i 0) k) * W (ix2 (n1 := M) k (i 1))

/-- One aggregation: node `n` receives, from every edge that ends at it, the source node's row times the edge's weight. -/
def agg {M : ℕ} (src dst : Edge → BitVec 32) (w : Edge → EReal) (h : (⟨2, ![10000, M]⟩ : Shape).Idx → EReal) :
    (⟨2, ![10000, M]⟩ : Shape).Idx → EReal :=
  fun i => ∑ e ∈ Finset.univ.filter (fun e : Edge => (nodeOf (dst e)).val = (i 0).val), h (ix2 (n1 := M) (nodeOf (src e)) (i 1)) * w e

/-- Layer 1 before the maximum. -/
def layer1 (x : (⟨2, ![10000, 128]⟩ : Shape).Idx → EReal) (W1 : (⟨2, ![128, 128]⟩ : Shape).Idx → EReal)
    (b1 : (⟨1, ![128]⟩ : Shape).Idx → EReal) (src dst : Edge → BitVec 32) (w : Edge → EReal) :
    (⟨2, ![10000, 128]⟩ : Shape).Idx → EReal :=
  fun i => agg src dst w (lin x W1) i + b1 (ix1 (n := 128) (i 1))

/-- Layer 1 after the maximum with zero. -/
def hidden (x : (⟨2, ![10000, 128]⟩ : Shape).Idx → EReal) (W1 : (⟨2, ![128, 128]⟩ : Shape).Idx → EReal)
    (b1 : (⟨1, ![128]⟩ : Shape).Idx → EReal) (src dst : Edge → BitVec 32) (w : Edge → EReal) :
    (⟨2, ![10000, 128]⟩ : Shape).Idx → EReal :=
  fun i => max (layer1 x W1 b1 src dst w i) 0

/-- THE RESULT: both programs' result array, as one function of the argument arrays, the edge words and the edge weights. -/
def G (x : (⟨2, ![10000, 128]⟩ : Shape).Idx → EReal) (W1 : (⟨2, ![128, 128]⟩ : Shape).Idx → EReal)
    (b1 : (⟨1, ![128]⟩ : Shape).Idx → EReal) (W2 : (⟨2, ![128, 64]⟩ : Shape).Idx → EReal) (b2 : (⟨1, ![64]⟩ : Shape).Idx → EReal)
    (src dst : Edge → BitVec 32) (w : Edge → EReal) : (⟨2, ![10000, 64]⟩ : Shape).Idx → EReal :=
  fun i => agg src dst w (lin (hidden x W1 b1 src dst w) W2) i + b2 (ix1 (n := 64) (i 1))

/-! ## Real entries stay real -/

theorem isReal_lin {N K M : ℕ} (a : (⟨2, ![N, K]⟩ : Shape).Idx → EReal) (W : (⟨2, ![K, M]⟩ : Shape).Idx → EReal)
    (ha : ∀ i, IsReal (a i)) (hW : ∀ i, IsReal (W i)) (i) : IsReal (lin a W i) :=
  IsReal.sum _ _ fun k _ => (ha _).mul (hW _)

theorem isReal_agg {M : ℕ} (src dst : Edge → BitVec 32) (w : Edge → EReal) (h : (⟨2, ![10000, M]⟩ : Shape).Idx → EReal)
    (hw : ∀ e, IsReal (w e)) (hh : ∀ i, IsReal (h i)) (i) : IsReal (agg src dst w h i) :=
  IsReal.sum _ _ fun e _ => (hh _).mul (hw e)

theorem isReal_hidden (x W1 b1 src dst w) (hx : ∀ i, IsReal (x i)) (hW1 : ∀ i, IsReal (W1 i)) (hb1 : ∀ i, IsReal (b1 i))
    (hw : ∀ e, IsReal (w e)) (i) : IsReal (hidden x W1 b1 src dst w i) :=
  ((isReal_agg src dst w _ hw (isReal_lin x W1 hx hW1) i).add (hb1 _)).max isReal_zero

end Cert.Gcn

end
-- ==== Proof.KReg0.lean ====
/-
  The output array of the first of the program's three kernel regions, entry by entry: the padded node features times the
  first weight matrix.
-/
import proofs.«402538_j62483184222721_2_alg».proof.Proof.Gen.KernelIdeal.Frame
import proofs.«402538_j62483184222721_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KReg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-! ## The contraction's operand indices, axis by axis -/

theorem lhs_dot0_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_dot0_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_dot0_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_dot0_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The body's arithmetic at an entry: row `p` of the left block against column `q` of the right block. -/
theorem pay0_apply (x0 : Vec Ideal S512x128 .f32) (x1 : Vec Ideal S128x128 .f32) (p : Fin 512) (q : Fin 128) :
    k0_pay1 (F := Ideal) x0 x1 (ix2 p q) = ∑ k : Fin 128, x0 (ix2 p k) * x1 (ix2 k q) := by
  unfold k0_pay1
  rw [truncf_apply]
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p q) ((contrEquiv1 dot_S512x128_S128x128_S512x128_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S512x128_S128x128_S512x128_1_0_0_1_n_n.rhsIdx (ix2 p q) ((contrEquiv1 dot_S512x128_S128x128_S512x128_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er, truncf_apply, truncf_apply, shapeCast_self]

/-- The zero offsets of a whole-block access, as a constant function. -/
theorem zero_offsets : (![0, 0] : Fin 2 → Nat) = fun _ => 0 := funext fun a => by fin_cases a <;> rfl

/-- The block indices of the three windows at every grid point: the row block moves with the point, the rest stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b))

/-- The left window's block at point `t` is rows `512 t … 512 t + 511` of its array. -/
theorem iblk0_0_apply (c : Dev nD) (t : Fin cfg0.N) (x : S512x128.Idx) (i : S10240x128.Idx)
    (hi0 : (i 0).val = t.val * 512 + (x 0).val) (hi1 : (i 1).val = (x 1).val) :
    (iblk0 V c 0 t : Vec Ideal S512x128 .f32) x = (V c main_v46 : S10240x128.Idx → EReal) i := by
  obtain ⟨e0, e1, -, -, -, -⟩ := idx_facts0 t
  unfold iblk0
  rw [View.read_apply]
  show V c main_v46 _ = V c main_v46 _
  congr 1
  funext a
  apply Fin.ext
  match a with
  | ⟨0, _⟩ => show win0_0.index t (0 : Fin 2) * 512 + 1 * (x 0).val = (i 0).val; rw [e0, hi0]; omega
  | ⟨1, _⟩ => show win0_0.index t (1 : Fin 2) * 128 + 1 * (x 1).val = (i 1).val; rw [e1, hi1]; omega

/-- The right window's block at every point is its whole array. -/
theorem iblk0_1_apply (c : Dev nD) (t : Fin cfg0.N) (x : S128x128.Idx) :
    (iblk0 V c 1 t : Vec Ideal S128x128 .f32) x = (V c main_arg1 : S128x128.Idx → EReal) x := by
  obtain ⟨-, -, e2, e3, -, -⟩ := idx_facts0 t
  unfold iblk0
  rw [View.read_apply]
  show V c main_arg1 _ = V c main_arg1 _
  congr 1
  funext a
  apply Fin.ext
  match a with
  | ⟨0, _⟩ => show win0_1.index t (0 : Fin 2) * 128 + 1 * (x 0).val = (x 0).val; rw [e2]; omega
  | ⟨1, _⟩ => show win0_1.index t (1 : Fin 2) * 128 + 1 * (x 1).val = (x 1).val; rw [e3]; omega

/-- The body's arithmetic on blocks that are the arrays' rows and columns the entry needs is the product's entry. -/
theorem block0_eq (a : S10240x128.Idx → EReal) (W : S128x128.Idx → EReal) (x0 : Vec Ideal S512x128 .f32) (x1 : Vec Ideal S128x128 .f32)
    (j : S512x128.Idx) (i : S10240x128.Idx)
    (h0 : ∀ k : Fin 128, x0 (ix2 (j 0) k) = a (ix2 (i 0) k))
    (h1 : ∀ k : Fin 128, x1 (ix2 k (j 1)) = W (ix2 k (i 1))) :
    k0_pay1 (F := Ideal) x0 x1 j = lin (N := 10240) (K := 128) (M := 128) a W i := by
  obtain ⟨p, q, rfl⟩ : ∃ (p : Fin 512) (q : Fin 128), j = ix2 p q := ⟨j 0, j 1, eq_ix2 j⟩
  have h0' : ∀ k : Fin 128, x0 (ix2 p k) = a (ix2 (i 0) k) := h0
  have h1' : ∀ k : Fin 128, x1 (ix2 k q) = W (ix2 k (i 1)) := h1
  rw [pay0_apply]
  unfold lin
  exact Finset.sum_congr rfl fun k _ => by rw [h0' k, h1' k]

/-- What point `t` writes back is block `t` of the product of the two arrays the region finds. -/
theorem flushed0_eq (c : Dev nD) (t : Fin cfg0.N) :
    (dat0 (F := Ideal) V c).flushed 2 t = ((cfg0.win 2).blk t).view.read (Elt Ideal) (lin (N := 10240) (K := 128) (M := 128) (V c main_v46) (V c main_arg1)) := by
  show (cfg0.win 2).cut (grid0.coords t) ((dat0 V c).after 2 t) = _
  rw [after0_2]
  unfold out0_2
  rw [View.canon_unit_zero zero_offsets]
  simp only [View.ld_unit_zero (S := S512x128) zero_offsets, View.ld_unit_zero (S := S128x128) zero_offsets]
  obtain ⟨-, -, -, -, e4, e5⟩ := idx_facts0 t
  funext j
  refine block0_eq (V c main_v46) (V c main_arg1) (iblk0 V c 0 t) (iblk0 V c 1 t) j (((cfg0.win 2).blk t).view.emb j) (fun k => ?_) (fun k => ?_)
  · refine iblk0_0_apply V c t _ _ ?_ ?_
    · show win0_2.index t (0 : Fin 2) * 512 + 1 * (j 0).val = t.val * 512 + (j 0).val
      rw [e4]; omega
    · rfl
  · refine (iblk0_1_apply V c t _).trans ?_
    congr 1
    funext a
    apply Fin.ext
    match a with
    | ⟨0, _⟩ => rfl
    | ⟨1, _⟩ => show (j 1).val = win0_2.index t (1 : Fin 2) * 128 + 1 * (j 1).val; rw [e5]; omega

/-- An index of the output array is in point `t`'s block iff each coordinate is in the block's range on its axis. -/
theorem mem_blk0 (t : Fin cfg0.N) (i : S10240x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v47).slice (win0_2.rect t)).set ↔ _
  rw [View.set_slice_whole, Rect.mem_set_unit]
  exact Iff.rfl

/-- Every entry of the output array is in some point's block: row `r` is in the block of point `r / 512`. -/
theorem cover0 (i : S10240x128.Idx) : ∃ t : Fin cfg0.N, (cfg0.win 2).flush t = true ∧ i ∈ ((cfg0.win 2).blk t).view.set := by
  have hi0 : (i 0).val < 10240 := (i 0).isLt
  have hi1 : (i 1).val < 128 := (i 1).isLt
  have hN : cfg0.N = 20 := N_0
  have hlt : (i 0).val / 512 < cfg0.N := by rw [hN]; omega
  obtain ⟨-, -, -, -, e4, e5⟩ := idx_facts0 ⟨(i 0).val / 512, hlt⟩
  have e4' : win0_2.index ⟨(i 0).val / 512, hlt⟩ (0 : Fin 2) = (i 0).val / 512 := e4
  refine ⟨⟨(i 0).val / 512, hlt⟩, flush0_2 _, ?_⟩
  rw [mem_blk0]
  intro a
  match a with
  | ⟨0, _⟩ =>
    show win0_2.index ⟨(i 0).val / 512, hlt⟩ (0 : Fin 2) * 512 ≤ (i 0).val ∧ (i 0).val < win0_2.index ⟨(i 0).val / 512, hlt⟩ (0 : Fin 2) * 512 + 512
    rw [e4']; omega
  | ⟨1, _⟩ =>
    show win0_2.index ⟨(i 0).val / 512, hlt⟩ (1 : Fin 2) * 128 ≤ (i 1).val ∧ (i 1).val < win0_2.index ⟨(i 0).val / 512, hlt⟩ (1 : Fin 2) * 128 + 128
    rw [e5]; omega

end Blocks

/-- Region 0 (the first dense layer, 512 rows per grid point, 20 points): after its write-backs the output array holds
    `xpad · W1`, every entry, as a function of the two arrays the region finds. -/
theorem arr0 (V : (c : Dev nD) → (b : Ref sig .tc) → Buf (Elt Ideal) ((c : Thread nD τ).loc b)) (c : Dev nD) :
    (dat0 (F := Ideal) V c).arrAt 2 cfg0.N = lin (N := 10240) (K := 128) (M := 128) (V c main_v46) (V c main_arg1) :=
  (dat0 (F := Ideal) V c).arrAt_eq_of_cover 2 _ (fun t _ => flushed0_eq V c t) cover0

end Cert.KernelIdeal.KReg0

end
-- ==== Proof.KReg1.lean ====
/-
  The output array of the second of the program's three kernel regions, entry by entry.

  Each of the 20 grid points takes 512 rows of the dense adjacency, multiplies them into the whole feature array
  (a sum over the 10240 columns), adds the bias row, takes the maximum with zero, and multiplies the result into the
  whole weight array (a sum over the 128 hidden features). Over the ideal values every rounding is the identity, so the
  block a point writes back is 512 rows of one function of the four arrays, and the 20 blocks cover all 10240 rows.
-/
import proofs.«402538_j62483184222721_2_alg».proof.Proof.Gen.KernelIdeal.Frame
import proofs.«402538_j62483184222721_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KReg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-! ## The two products of the body, read at an entry -/

/-- The aggregation product's left operand index: row of the output entry. -/
theorem lhs_agg_0 (i : S512x128.Idx) (q : dot_S512x10240_S10240x128_S512x128_1_0_0_1_n_n.contr.Idx) :
    (dot_S512x10240_S10240x128_S512x128_1_0_0_1_n_n.lhsIdx i q 0).val = (i 0).val := by
  unfold DotDims.lhsIdx
  rw [dif_neg (show ¬(0 : Fin S512x10240.rank) ∈ dot_S512x10240_S10240x128_S512x128_1_0_0_1_n_n.lhsBatch by decide), dif_pos (show (0 : Fin S512x10240.rank) ∈ dot_S512x10240_S10240x128_S512x128_1_0_0_1_n_n.lhsNonContracting by decide)]
  rfl
/-- The aggregation product's left operand index: column is the contraction index. -/
theorem lhs_agg_1 (i : S512x128.Idx) (q : dot_S512x10240_S10240x128_S512x128_1_0_0_1_n_n.contr.Idx) :
    (dot_S512x10240_S10240x128_S512x128_1_0_0_1_n_n.lhsIdx i q 1).val = (q ⟨0, by decide⟩).val :=
  dot_S512x10240_S10240x128_S512x128_1_0_0_1_n_n.lhsIdx_val_of_single rfl i q
/-- The aggregation product's right operand index: row is the contraction index. -/
theorem rhs_agg_0 (i : S512x128.Idx) (q : dot_S512x10240_S10240x128_S512x128_1_0_0_1_n_n.contr.Idx) :
    (dot_S512x10240_S10240x128_S512x128_1_0_0_1_n_n.rhsIdx i q 0).val = (q ⟨0, by decide⟩).val :=
  dot_S512x10240_S10240x128_S512x128_1_0_0_1_n_n.rhsIdx_val_of_single rfl i q
/-- The aggregation product's right operand index: column of the output entry. -/
theorem rhs_agg_1 (i : S512x128.Idx) (q : dot_S512x10240_S10240x128_S512x128_1_0_0_1_n_n.contr.Idx) :
    (dot_S512x10240_S10240x128_S512x128_1_0_0_1_n_n.rhsIdx i q 1).val = (i 1).val := by
  unfold DotDims.rhsIdx
  rw [dif_neg (show ¬(1 : Fin S10240x128.rank) ∈ dot_S512x10240_S10240x128_S512x128_1_0_0_1_n_n.rhsBatch by decide), dif_pos (show (1 : Fin S10240x128.rank) ∈ dot_S512x10240_S10240x128_S512x128_1_0_0_1_n_n.rhsNonContracting by decide)]
  rfl

/-- The aggregation product into a zero accumulator, at entry `(p, q)`: `∑ k, a[p, k] · b[k, q]` over the 10240 columns. -/
theorem agg_apply (a : FVec Ideal S512x10240 .bf16) (b : FVec Ideal S10240x128 .bf16) (p : Fin 512) (q : Fin 128) :
    matmul (F := Ideal) dot_S512x10240_S10240x128_S512x128_1_0_0_1_n_n none a b (constant (F := Ideal) S512x128 .f32 0x00000000#32) (ix2 p q)
      = ∑ k : Fin 10240, a (ix2 p k) * b (ix2 k q) := by
  refine (Ideal.matmul_constant_zero_apply dot_S512x10240_S10240x128_S512x128_1_0_0_1_n_n none a b (ix2 p q)).trans ?_
  rw [← Equiv.sum_comp (contrEquiv1 dot_S512x10240_S10240x128_S512x128_1_0_0_1_n_n 10240 rfl rfl).symm]
  refine Finset.sum_congr rfl fun k _ => ?_
  have hk := contrEquiv1_symm_val dot_S512x10240_S10240x128_S512x128_1_0_0_1_n_n 10240 rfl rfl k
  have el : dot_S512x10240_S10240x128_S512x128_1_0_0_1_n_n.lhsIdx (ix2 p q) ((contrEquiv1 dot_S512x10240_S10240x128_S512x128_1_0_0_1_n_n 10240 rfl rfl).symm k) = ix2 p k := funext fun a => Fin.ext (by
    match a with
    | ⟨0, _⟩ => exact lhs_agg_0 _ _
    | ⟨1, _⟩ => exact (lhs_agg_1 _ _).trans hk)
  have er : dot_S512x10240_S10240x128_S512x128_1_0_0_1_n_n.rhsIdx (ix2 p q) ((contrEquiv1 dot_S512x10240_S10240x128_S512x128_1_0_0_1_n_n 10240 rfl rfl).symm k) = ix2 k q := funext fun a => Fin.ext (by
    match a with
    | ⟨0, _⟩ => exact (rhs_agg_0 _ _).trans hk
    | ⟨1, _⟩ => exact rhs_agg_1 _ _)
  rw [el, er]

/-- The dense layer's left operand index: row of the output entry. -/
theorem lhs_dense_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
/-- The dense layer's left operand index: column is the contraction index. -/
theorem lhs_dense_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
/-- The dense layer's right operand index: row is the contraction index. -/
theorem rhs_dense_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
/-- The dense layer's right operand index: column of the output entry. -/
theorem rhs_dense_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The dense layer's product into a zero accumulator, at entry `(p, g)`: `∑ k, a[p, k] · b[k, g]` over the 128 hidden features. -/
theorem dense_apply (a : FVec Ideal S512x128 .bf16) (b : FVec Ideal S128x64 .bf16) (p : Fin 512) (g : Fin 64) :
    matmul (F := Ideal) dot_S512x128_S128x64_S512x64_1_0_0_1_n_n none a b (constant (F := Ideal) S512x64 .f32 0x00000000#32) (ix2 p g)
      = ∑ k : Fin 128, a (ix2 p k) * b (ix2 k g) := by
  refine (Ideal.matmul_constant_zero_apply dot_S512x128_S128x64_S512x64_1_0_0_1_n_n none a b (ix2 p g)).trans ?_
  rw [← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 p g) ((contrEquiv1 dot_S512x128_S128x64_S512x64_1_0_0_1_n_n 128 rfl rfl).symm k) = ix2 p k := funext fun a => Fin.ext (by
    match a with
    | ⟨0, _⟩ => exact lhs_dense_0 _ _
    | ⟨1, _⟩ => exact (lhs_dense_1 _ _).trans hk)
  have er : dot_S512x128_S128x64_S512x64_1_0_0_1_n_n.rhsIdx (ix2 p g) ((contrEquiv1 dot_S512x128_S128x64_S512x64_1_0_0_1_n_n 128 rfl rfl).symm k) = ix2 k g := funext fun a => Fin.ext (by
    match a with
    | ⟨0, _⟩ => exact (rhs_dense_0 _ _).trans hk
    | ⟨1, _⟩ => exact rhs_dense_1 _ _)
  rw [el, er]

/-- The bias row broadcast down the 512 rows, at entry `(p, q)`: the bias at `(0, q)`. -/
theorem bias_apply (x : FVec Ideal S1x128 .f32) (p : Fin 512) (q : Fin 128) :
    broadcastTo S512x128 x broadcasts_S1x128_S512x128 (ix2 p q) = x (ix2 (n0 := 1) 0 q) := by
  refine broadcastTo_apply x broadcasts_S1x128_S512x128 (ix2 p q) (ix2 (n0 := 1) 0 q) fun a => ?_
  match a with
  | ⟨0, _⟩ => rfl
  | ⟨1, _⟩ => rfl

/-- THE BODY'S PAYLOAD AT AN ENTRY. Over the ideal values the roundings and same-shape casts are the identity, so the stored
    block at `(p, g)` is `∑ k, max ((∑ c, A[p, c] · h[c, k]) + b[0, k]) 0 · W[k, g]`. -/
theorem pay_apply (x0 : Vec Ideal S512x10240 .bf16) (x1 : Vec Ideal S10240x128 .bf16) (x2 : Vec Ideal S1x128 .f32) (x3 : Vec Ideal S128x64 .f32)
    (p : Fin 512) (g : Fin 64) :
    k1_pay1 (F := Ideal) x0 x1 x2 x3 (ix2 p g)
      = ∑ k : Fin 128, max ((∑ c : Fin 10240, (x0 : FVec Ideal S512x10240 .bf16) (ix2 p c) * (x1 : FVec Ideal S10240x128 .bf16) (ix2 c k))
                              + (x2 : FVec Ideal S1x128 .f32) (ix2 (n0 := 1) 0 k)) 0
                          * (x3 : FVec Ideal S128x64 .f32) (ix2 k g) := by
  unfold k1_pay1
  simp only [shapeCast_self]
  refine (truncf_apply (ψ := .bf16) _ bitsLt_bf16_f32 (ix2 p g)).trans ?_
  refine (dense_apply _ _ p g).trans ?_
  refine Finset.sum_congr rfl fun k _ => ?_
  show max (matmul (F := Ideal) dot_S512x10240_S10240x128_S512x128_1_0_0_1_n_n none x0 x1 (constant (F := Ideal) S512x128 .f32 0x00000000#32) (ix2 p k)
              + broadcastTo S512x128 x2 broadcasts_S1x128_S512x128 (ix2 p k)) (Ideal.ofBits .f32 0x00000000#32) * x3 (ix2 k g) = _
  rw [agg_apply, bias_apply, Ideal.ofBits_zero_f32]

/-! ## From the 20 blocks of 512 rows to the array -/

theorem hz : (![0, 0] : Fin 2 → Nat) = fun _ => 0 := funext fun a => by
  match a with
  | ⟨0, _⟩ => rfl
  | ⟨1, _⟩ => rfl

/-- What the output array ends holding: at `(n, g)`, `∑ k, max ((∑ c, A[n, c] · h[c, k]) + b[0, k]) 0 · W[k, g]`. -/
abbrev G1 (A : (⟨2, ![10240, 10240]⟩ : Shape).Idx → EReal) (h : (⟨2, ![10240, 128]⟩ : Shape).Idx → EReal)
    (b : (⟨2, ![1, 128]⟩ : Shape).Idx → EReal) (W : (⟨2, ![128, 64]⟩ : Shape).Idx → EReal) : (⟨2, ![10240, 64]⟩ : Shape).Idx → EReal :=
  lin (N := 10240) (K := 128) (M := 64)
    (fun j => max (lin (N := 10240) (K := 10240) (M := 128) A h j + b (ix2 (n0 := 1) (n1 := 128) 0 (j 1))) 0) W

/-- That function at an entry given by its two coordinates. -/
theorem G1_apply (A : (⟨2, ![10240, 10240]⟩ : Shape).Idx → EReal) (h : (⟨2, ![10240, 128]⟩ : Shape).Idx → EReal)
    (b : (⟨2, ![1, 128]⟩ : Shape).Idx → EReal) (W : (⟨2, ![128, 64]⟩ : Shape).Idx → EReal) (r : Fin 10240) (g : Fin 64) :
    G1 A h b W (ix2 r g)
      = ∑ k : Fin 128, max ((∑ c : Fin 10240, A (ix2 r c) * h (ix2 c k)) + b (ix2 (n0 := 1) 0 k)) 0 * W (ix2 k g) := rfl

/-- The index maps over the 20 grid points: the adjacency window and the output window sit at block row `t`,
    column block 0; the feature, bias and weight windows are their whole arrays at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of grid point `t`'s block is row `512 t + p` of the array. -/
def row (t : Fin cfg1.N) (p : Fin 512) : Fin 10240 :=
  ⟨t.val * 512 + p.val, by have ht : t.val < 20 := lt_of_lt_of_eq t.isLt N_1; have hp := p.isLt; omega⟩

theorem row_val (t : Fin cfg1.N) (p : Fin 512) : (row t p).val = t.val * 512 + p.val := rfl

section Blocks
variable (V : (c : Dev nD) → (b : Ref sig .tc) → Buf (Elt Ideal) ((c : Thread nD τ).loc b))

/-- The adjacency window's block at point `t`: rows `512 t …` of the adjacency, every column. -/
theorem adj_blk (c : Dev nD) (t : Fin cfg1.N) (p : Fin 512) (k : Fin 10240) :
    (iblk1 (F := Ideal) V c 0 t : FVec Ideal S512x10240 .bf16) (ix2 p k)
      = (V c main_v45 : (⟨2, ![10240, 10240]⟩ : Shape).Idx → EReal) (ix2 (row t p) k) := by
  obtain ⟨e0, e1, -⟩ := idx_facts t
  show (V c main_v45 : (⟨2, ![10240, 10240]⟩ : Shape).Idx → EReal) (((cfg1.win 0).blk t).view.emb (ix2 p k)) = _
  refine congrArg (V c main_v45 : (⟨2, ![10240, 10240]⟩ : Shape).Idx → EReal) (funext fun a => Fin.ext ?_)
  match a with
  | ⟨0, _⟩ => show win1_0.index t (0 : Fin 2) * 512 + 1 * p.val = t.val * 512 + p.val; rw [e0]; omega
  | ⟨1, _⟩ => show win1_0.index t (1 : Fin 2) * 10240 + 1 * k.val = k.val; rw [e1]; omega

/-- The feature window's block at every point: the whole feature array. -/
theorem feat_blk (c : Dev nD) (t : Fin cfg1.N) (k : Fin 10240) (q : Fin 128) :
    (iblk1 (F := Ideal) V c 1 t : FVec Ideal S10240x128 .bf16) (ix2 k q)
      = (V c main_v47 : (⟨2, ![10240, 128]⟩ : Shape).Idx → EReal) (ix2 k q) := by
  obtain ⟨-, -, e0, e1, -⟩ := idx_facts t
  show (V c main_v47 : (⟨2, ![10240, 128]⟩ : Shape).Idx → EReal) (((cfg1.win 1).blk t).view.emb (ix2 k q)) = _
  refine congrArg (V c main_v47 : (⟨2, ![10240, 128]⟩ : Shape).Idx → EReal) (funext fun a => Fin.ext ?_)
  match a with
  | ⟨0, _⟩ => show win1_1.index t (0 : Fin 2) * 10240 + 1 * k.val = k.val; rw [e0]; omega
  | ⟨1, _⟩ => show win1_1.index t (1 : Fin 2) * 128 + 1 * q.val = q.val; rw [e1]; omega

/-- The bias window's block at every point: the whole bias row. -/
theorem bias_blk (c : Dev nD) (t : Fin cfg1.N) (q : Fin 128) :
    (iblk1 (F := Ideal) V c 2 t : FVec Ideal S1x128 .f32) (ix2 (n0 := 1) 0 q)
      = (V c main_v48 : (⟨2, ![1, 128]⟩ : Shape).Idx → EReal) (ix2 (n0 := 1) 0 q) := by
  obtain ⟨-, -, -, -, e0, e1, -⟩ := idx_facts t
  show (V c main_v48 : (⟨2, ![1, 128]⟩ : Shape).Idx → EReal) (((cfg1.win 2).blk t).view.emb (ix2 (n0 := 1) 0 q)) = _
  refine congrArg (V c main_v48 : (⟨2, ![1, 128]⟩ : Shape).Idx → EReal) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

/-- The weight window's block at every point: the whole weight array. -/
theorem wt_blk (c : Dev nD) (t : Fin cfg1.N) (k : Fin 128) (g : Fin 64) :
    (iblk1 (F := Ideal) V c 3 t : FVec Ideal S128x64 .f32) (ix2 k g)
      = (V c main_arg3 : (⟨2, ![128, 64]⟩ : Shape).Idx → EReal) (ix2 k g) := by
  obtain ⟨-, -, -, -, -, -, e0, e1, -⟩ := idx_facts t
  show (V c main_arg3 : (⟨2, ![128, 64]⟩ : Shape).Idx → EReal) (((cfg1.win 3).blk t).view.emb (ix2 k g)) = _
  refine congrArg (V c main_arg3 : (⟨2, ![128, 64]⟩ : Shape).Idx → EReal) (funext fun a => Fin.ext ?_)
  match a with
  | ⟨0, _⟩ => show win1_3.index t (0 : Fin 2) * 128 + 1 * k.val = k.val; rw [e0]; omega
  | ⟨1, _⟩ => show win1_3.index t (1 : Fin 2) * 64 + 1 * g.val = g.val; rw [e1]; omega

/-- An entry of the output window's block at point `t` sits in the array at row `512 t + p`, same column. -/
theorem out_emb (t : Fin cfg1.N) (p : Fin 512) (g : Fin 64) :
    ((cfg1.win 4).blk t).view.emb (ix2 p g) = (ix2 (row t p) g : (⟨2, ![10240, 64]⟩ : Shape).Idx) := by
  obtain ⟨-, -, -, -, -, -, -, -, e0, e1⟩ := idx_facts t
  refine funext fun a => Fin.ext ?_
  match a with
  | ⟨0, _⟩ => show win1_4.index t (0 : Fin 2) * 512 + 1 * p.val = t.val * 512 + p.val; rw [e0]; omega
  | ⟨1, _⟩ => show win1_4.index t (1 : Fin 2) * 64 + 1 * g.val = g.val; rw [e1]; omega

/-- WHAT POINT `t` WRITES BACK is block `t` of `G1` of the arrays the region finds: each of its 512 rows reads its own
    adjacency row against the whole feature, bias and weight arrays. -/
theorem flushed_eq (c : Dev nD) (t : Fin cfg1.N) :
    (dat1 (F := Ideal) V c).flushed 4 t
      = ((cfg1.win 4).blk t).view.read (Elt Ideal) (G1 (V c main_v45) (V c main_v47) (V c main_v48) (V c main_arg3)) := by
  show (cfg1.win 4).cut (grid1.coords t) ((dat1 V c).after 4 t) = _
  rw [after1_4]
  unfold out1_4
  rw [View.canon_unit_zero hz]
  simp only [View.ld_unit_zero (S := S512x10240) hz, View.ld_unit_zero (S := S10240x128) hz,
    View.ld_unit_zero (S := S1x128) hz, View.ld_unit_zero (S := S128x64) hz]
  funext j
  obtain ⟨p, g, rfl⟩ : ∃ (p : Fin 512) (g : Fin 64), j = ix2 p g := ⟨j 0, j 1, eq_ix2 (n0 := 512) (n1 := 64) j⟩
  show k1_pay1 (F := Ideal) (iblk1 V c 0 t) (iblk1 V c 1 t) (iblk1 V c 2 t) (iblk1 V c 3 t) (ix2 p g)
      = G1 (V c main_v45) (V c main_v47) (V c main_v48) (V c main_arg3) (((cfg1.win 4).blk t).view.emb (ix2 p g))
  refine (pay_apply (iblk1 V c 0 t) (iblk1 V c 1 t) (iblk1 V c 2 t) (iblk1 V c 3 t) p g).trans ?_
  refine Eq.trans ?_ (congrArg (G1 (V c main_v45) (V c main_v47) (V c main_v48) (V c main_arg3)) (out_emb t p g)).symm
  refine Eq.trans ?_ (G1_apply (V c main_v45) (V c main_v47) (V c main_v48) (V c main_arg3) (row t p) g).symm
  refine Finset.sum_congr rfl fun k _ => ?_
  rw [wt_blk V c t k g, bias_blk V c t k]
  refine congrArg (fun s => max (s + (V c main_v48 : (⟨2, ![1, 128]⟩ : Shape).Idx → EReal) (ix2 (n0 := 1) 0 k)) 0 * (V c main_arg3 : (⟨2, ![128, 64]⟩ : Shape).Idx → EReal) (ix2 k g)) ?_
  refine Finset.sum_congr rfl fun c' _ => ?_
  rw [adj_blk V c t p c', feat_blk V c t c' k]

/-- An index of the array is in point `t`'s block iff each coordinate is in the block's range on its axis. -/
theorem mem_blk (t : Fin cfg1.N) (i : S10240x64.Idx) :
    i ∈ ((cfg1.win 4).blk t).view.set ↔ ∀ a : Fin 2, win1_4.index t a * S512x64.size a ≤ (i a).val ∧ (i a).val < win1_4.index t a * S512x64.size a + S512x64.size a := by
  show i ∈ ((View.whole main_v49).slice (win1_4.rect t)).set ↔ _
  rw [View.set_slice_whole, Rect.mem_set_unit]
  exact Iff.rfl

/-- The 20 blocks of 512 rows cover all 10240 rows: row `r` is in point `r / 512`'s block. -/
theorem cover (i : S10240x64.Idx) :
    ∃ t : Fin cfg1.N, (cfg1.win 4).flush t = true ∧ i ∈ ((cfg1.win 4).blk t).view.set := by
  have hi0 : (i 0).val < 10240 := (i 0).isLt
  have hi1 : (i 1).val < 64 := (i 1).isLt
  have hN : cfg1.N = 20 := N_1
  obtain ⟨t, ht⟩ : ∃ t : Fin cfg1.N, t.val = (i 0).val / 512 := ⟨⟨(i 0).val / 512, by rw [hN]; omega⟩, rfl⟩
  obtain ⟨-, -, -, -, -, -, -, -, e0, e1⟩ := idx_facts t
  refine ⟨t, flush1_4 t, ?_⟩
  rw [mem_blk]
  intro a
  match a with
  | ⟨0, _⟩ => show win1_4.index t (0 : Fin 2) * 512 ≤ (i 0).val ∧ (i 0).val < win1_4.index t (0 : Fin 2) * 512 + 512; rw [e0, ht]; omega
  | ⟨1, _⟩ => show win1_4.index t (1 : Fin 2) * 64 ≤ (i 1).val ∧ (i 1).val < win1_4.index t (1 : Fin 2) * 64 + 64; rw [e1]; omega

end Blocks

/-- Region 1 (aggregation by the dense adjacency, bias, maximum with zero, second dense layer; 512 rows per grid point):
    after its write-backs the output array holds, at `(n, g)`, `∑ k, max ((∑ c, A[n, c] · h[c, k]) + b[0, k]) 0 · W2[k, g]`. -/
theorem arr1 (V : (c : Dev nD) → (b : Ref sig .tc) → Buf (Elt Ideal) ((c : Thread nD τ).loc b)) (c : Dev nD) :
    (dat1 (F := Ideal) V c).arrAt 4 cfg1.N
      = lin (N := 10240) (K := 128) (M := 64)
          (fun j => max (lin (N := 10240) (K := 10240) (M := 128) (V c main_v45) (V c main_v47) j
                          + (V c main_v48 : (⟨2, ![1, 128]⟩ : Shape).Idx → EReal) (ix2 (n0 := 1) (n1 := 128) 0 (j 1))) 0)
          (V c main_arg3) :=
  (dat1 (F := Ideal) V c).arrAt_eq_of_cover 4 (G1 (V c main_v45) (V c main_v47) (V c main_v48) (V c main_arg3))
    (fun t _ => flushed_eq V c t) cover

end Cert.KernelIdeal.KReg1

end
-- ==== Proof.KReg2.lean ====
/-
  The output array of the third of the program's three kernel regions, entry by entry.
-/
import proofs.«402538_j62483184222721_2_alg».proof.Proof.Gen.KernelIdeal.Frame
import proofs.«402538_j62483184222721_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KReg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-! ## The contraction's operand indices, axis by axis -/

theorem lhs_dot2_0 (i : S512x64.Idx) (q : dot_S512x10240_S10240x64_S512x64_1_0_0_1_n_n.contr.Idx) :
    (dot_S512x10240_S10240x64_S512x64_1_0_0_1_n_n.lhsIdx i q 0).val = (i 0).val := by
  unfold DotDims.lhsIdx
  rw [dif_neg (show ¬(0 : Fin S512x10240.rank) ∈ dot_S512x10240_S10240x64_S512x64_1_0_0_1_n_n.lhsBatch by decide), dif_pos (show (0 : Fin S512x10240.rank) ∈ dot_S512x10240_S10240x64_S512x64_1_0_0_1_n_n.lhsNonContracting by decide)]
  rfl
theorem lhs_dot2_1 (i : S512x64.Idx) (q : dot_S512x10240_S10240x64_S512x64_1_0_0_1_n_n.contr.Idx) :
    (dot_S512x10240_S10240x64_S512x64_1_0_0_1_n_n.lhsIdx i q 1).val = (q ⟨0, by decide⟩).val :=
  dot_S512x10240_S10240x64_S512x64_1_0_0_1_n_n.lhsIdx_val_of_single rfl i q
theorem rhs_dot2_0 (i : S512x64.Idx) (q : dot_S512x10240_S10240x64_S512x64_1_0_0_1_n_n.contr.Idx) :
    (dot_S512x10240_S10240x64_S512x64_1_0_0_1_n_n.rhsIdx i q 0).val = (q ⟨0, by decide⟩).val :=
  dot_S512x10240_S10240x64_S512x64_1_0_0_1_n_n.rhsIdx_val_of_single rfl i q
theorem rhs_dot2_1 (i : S512x64.Idx) (q : dot_S512x10240_S10240x64_S512x64_1_0_0_1_n_n.contr.Idx) :
    (dot_S512x10240_S10240x64_S512x64_1_0_0_1_n_n.rhsIdx i q 1).val = (i 1).val := by
  unfold DotDims.rhsIdx
  rw [dif_neg (show ¬(1 : Fin S10240x64.rank) ∈ dot_S512x10240_S10240x64_S512x64_1_0_0_1_n_n.rhsBatch by decide), dif_pos (show (1 : Fin S10240x64.rank) ∈ dot_S512x10240_S10240x64_S512x64_1_0_0_1_n_n.rhsNonContracting by decide)]
  rfl

/-- A one-row block spread down 512 rows reads, at any row, the row's entry of the column. -/
theorem bias_row_apply (x : FVec Ideal S1x64 .f32) (p : Fin 512) (q : Fin 64) :
    broadcastTo S512x64 x broadcasts_S1x64_S512x64 (ix2 p q) = x (ix2 (n0 := 1) (n1 := 64) 0 q) :=
  broadcastTo_apply x broadcasts_S1x64_S512x64 (ix2 p q) (ix2 (n0 := 1) (n1 := 64) 0 q) fun a => by
    match a with
    | ⟨0, _⟩ => rfl
    | ⟨1, _⟩ => rfl

/-- The body's arithmetic at an entry: row `p` of the left block against column `q` of the right block, plus the bias row's entry `q`. -/
theorem pay2_apply (x0 : Vec Ideal S512x10240 .bf16) (x1 : Vec Ideal S10240x64 .bf16) (x2 : Vec Ideal S1x64 .f32) (p : Fin 512) (q : Fin 64) :
    k2_pay1 (F := Ideal) x0 x1 x2 (ix2 p q) = (∑ k : Fin 10240, x0 (ix2 p k) * x1 (ix2 k q)) + x2 (ix2 (n0 := 1) (n1 := 64) 0 q) := by
  unfold k2_pay1
  rw [addf_apply]
  simp only [matmul, shapeCast_self]
  rw [Ideal.matmul_constant_zero_apply, bias_row_apply, ← Equiv.sum_comp (contrEquiv1 dot_S512x10240_S10240x64_S512x64_1_0_0_1_n_n 10240 rfl rfl).symm]
  congr 1
  refine Finset.sum_congr rfl fun k _ => ?_
  have hk := contrEquiv1_symm_val dot_S512x10240_S10240x64_S512x64_1_0_0_1_n_n 10240 rfl rfl k
  have el : dot_S512x10240_S10240x64_S512x64_1_0_0_1_n_n.lhsIdx (ix2 p q) ((contrEquiv1 dot_S512x10240_S10240x64_S512x64_1_0_0_1_n_n 10240 rfl rfl).symm k) = ix2 p k := funext fun a => Fin.ext (by
    match a with
    | ⟨0, _⟩ => exact lhs_dot2_0 _ _
    | ⟨1, _⟩ => exact (lhs_dot2_1 _ _).trans hk)
  have er : dot_S512x10240_S10240x64_S512x64_1_0_0_1_n_n.rhsIdx (ix2 p q) ((contrEquiv1 dot_S512x10240_S10240x64_S512x64_1_0_0_1_n_n 10240 rfl rfl).symm k) = ix2 k q := funext fun a => Fin.ext (by
    match a with
    | ⟨0, _⟩ => exact (rhs_dot2_0 _ _).trans hk
    | ⟨1, _⟩ => exact rhs_dot2_1 _ _)
  rw [el, er]

/-- The zero offsets of a whole-block access, as a constant function. -/
theorem zero_offsets : (![0, 0] : Fin 2 → Nat) = fun _ => 0 := funext fun a => by fin_cases a <;> rfl

/-- The block indices of the four windows at every grid point: the row block of the adjacency and of the output moves with the
    point, the rest stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks

variable (V : (c : Dev nD) → (b : Ref sig .tc) → Buf (Elt Ideal) ((c : Thread nD τ).loc b))

/-- The adjacency window's block at point `t` is rows `512 t … 512 t + 511` of its array. -/
theorem iblk2_0_apply (c : Dev nD) (t : Fin cfg2.N) (x : S512x10240.Idx) (i : S10240x10240.Idx)
    (hi0 : (i 0).val = t.val * 512 + (x 0).val) (hi1 : (i 1).val = (x 1).val) :
    (iblk2 V c 0 t : Vec Ideal S512x10240 .bf16) x = (V c main_v45 : S10240x10240.Idx → EReal) i := by
  obtain ⟨e0, e1, -, -, -, -, -, -⟩ := idx_facts2 t
  unfold iblk2
  rw [View.read_apply]
  show V c main_v45 _ = V c main_v45 _
  congr 1
  funext a
  apply Fin.ext
  match a with
  | ⟨0, _⟩ => show win2_0.index t (0 : Fin 2) * 512 + 1 * (x 0).val = (i 0).val; rw [e0, hi0]; omega
  | ⟨1, _⟩ => show win2_0.index t (1 : Fin 2) * 10240 + 1 * (x 1).val = (i 1).val; rw [e1, hi1]; omega

/-- The features window's block at every point is its whole array. -/
theorem iblk2_1_apply (c : Dev nD) (t : Fin cfg2.N) (x : S10240x64.Idx) :
    (iblk2 V c 1 t : Vec Ideal S10240x64 .bf16) x = (V c main_v49 : S10240x64.Idx → EReal) x := by
  obtain ⟨-, -, e2, e3, -, -, -, -⟩ := idx_facts2 t
  unfold iblk2
  rw [View.read_apply]
  show V c main_v49 _ = V c main_v49 _
  congr 1
  funext a
  apply Fin.ext
  match a with
  | ⟨0, _⟩ => show win2_1.index t (0 : Fin 2) * 10240 + 1 * (x 0).val = (x 0).val; rw [e2]; omega
  | ⟨1, _⟩ => show win2_1.index t (1 : Fin 2) * 64 + 1 * (x 1).val = (x 1).val; rw [e3]; omega

/-- The bias window's block at every point is its whole array. -/
theorem iblk2_2_apply (c : Dev nD) (t : Fin cfg2.N) (x : S1x64.Idx) :
    (iblk2 V c 2 t : Vec Ideal S1x64 .f32) x = (V c main_v50 : S1x64.Idx → EReal) x := by
  obtain ⟨-, -, -, -, e4, e5, -, -⟩ := idx_facts2 t
  unfold iblk2
  rw [View.read_apply]
  show V c main_v50 _ = V c main_v50 _
  congr 1
  funext a
  apply Fin.ext
  match a with
  | ⟨0, _⟩ => show win2_2.index t (0 : Fin 2) * 1 + 1 * (x 0).val = (x 0).val; rw [e4]; omega
  | ⟨1, _⟩ => show win2_2.index t (1 : Fin 2) * 64 + 1 * (x 1).val = (x 1).val; rw [e5]; omega

/-- The body's arithmetic on blocks that are the arrays' rows and columns the entry needs is the product's entry plus the bias. -/
theorem block2_eq (A : S10240x10240.Idx → EReal) (h : S10240x64.Idx → EReal) (b : S1x64.Idx → EReal)
    (x0 : Vec Ideal S512x10240 .bf16) (x1 : Vec Ideal S10240x64 .bf16) (x2 : Vec Ideal S1x64 .f32)
    (j : S512x64.Idx) (i : S10240x64.Idx)
    (h0 : ∀ k : Fin 10240, x0 (ix2 (j 0) k) = A (ix2 (i 0) k))
    (h1 : ∀ k : Fin 10240, x1 (ix2 k (j 1)) = h (ix2 k (i 1)))
    (h2 : x2 (ix2 (n0 := 1) (n1 := 64) 0 (j 1)) = b (ix2 (n0 := 1) (n1 := 64) 0 (i 1))) :
    k2_pay1 (F := Ideal) x0 x1 x2 j = lin (N := 10240) (K := 10240) (M := 64) A h i + b (ix2 (n0 := 1) (n1 := 64) 0 (i 1)) := by
  obtain ⟨p, q, rfl⟩ : ∃ (p : Fin 512) (q : Fin 64), j = ix2 p q := ⟨j 0, j 1, eq_ix2 j⟩
  have h0' : ∀ k : Fin 10240, x0 (ix2 p k) = A (ix2 (i 0) k) := h0
  have h1' : ∀ k : Fin 10240, x1 (ix2 k q) = h (ix2 k (i 1)) := h1
  have h2' : x2 (ix2 (n0 := 1) (n1 := 64) 0 q) = b (ix2 (n0 := 1) (n1 := 64) 0 (i 1)) := h2
  rw [pay2_apply, h2']
  unfold lin
  congr 1
  exact Finset.sum_congr rfl fun k _ => by rw [h0' k, h1' k]

/-- What point `t` writes back is block `t` of the product of the adjacency and the features, plus the bias row. -/
theorem flushed2_eq (c : Dev nD) (t : Fin cfg2.N) :
    (dat2 (F := Ideal) V c).flushed 3 t = ((cfg2.win 3).blk t).view.read (Elt Ideal)
      (fun j => lin (N := 10240) (K := 10240) (M := 64) (V c main_v45) (V c main_v49) j
                  + (V c main_v50 : (⟨2, ![1, 64]⟩ : Shape).Idx → EReal) (ix2 (n0 := 1) (n1 := 64) 0 (j 1))) := by
  show (cfg2.win 3).cut (grid2.coords t) ((dat2 V c).after 3 t) = _
  rw [after2_3]
  unfold out2_3
  rw [View.canon_unit_zero zero_offsets]
  simp only [View.ld_unit_zero (S := S512x10240) zero_offsets, View.ld_unit_zero (S := S10240x64) zero_offsets, View.ld_unit_zero (S := S1x64) zero_offsets]
  obtain ⟨-, -, -, -, -, -, e6, e7⟩ := idx_facts2 t
  funext j
  have hcol : ((((cfg2.win 3).blk t).view.emb j) 1).val = (j 1).val := by
    show win2_3.index t (1 : Fin 2) * 64 + 1 * (j 1).val = (j 1).val
    rw [e7]; omega
  refine block2_eq (V c main_v45) (V c main_v49) (V c main_v50) (iblk2 V c 0 t) (iblk2 V c 1 t) (iblk2 V c 2 t) j (((cfg2.win 3).blk t).view.emb j) (fun k => ?_) (fun k => ?_) ?_
  · refine iblk2_0_apply V c t _ _ ?_ ?_
    · show win2_3.index t (0 : Fin 2) * 512 + 1 * (j 0).val = t.val * 512 + (j 0).val
      rw [e6]; omega
    · rfl
  · refine (iblk2_1_apply V c t _).trans ?_
    congr 1
    funext a
    apply Fin.ext
    match a with
    | ⟨0, _⟩ => rfl
    | ⟨1, _⟩ => exact hcol.symm
  · refine (iblk2_2_apply V c t _).trans ?_
    congr 1
    funext a
    apply Fin.ext
    match a with
    | ⟨0, _⟩ => rfl
    | ⟨1, _⟩ => exact hcol.symm

/-- An index of the output array is in point `t`'s block iff each coordinate is in the block's range on its axis. -/
theorem mem_blk2 (t : Fin cfg2.N) (i : S10240x64.Idx) :
    i ∈ ((cfg2.win 3).blk t).view.set ↔ ∀ a : Fin 2, win2_3.index t a * S512x64.size a ≤ (i a).val ∧ (i a).val < win2_3.index t a * S512x64.size a + S512x64.size a := by
  show i ∈ ((View.whole main_v51).slice (win2_3.rect t)).set ↔ _
  rw [View.set_slice_whole, Rect.mem_set_unit]
  exact Iff.rfl

/-- Every entry of the output array is in some point's block: row `r` is in the block of point `r / 512`. -/
theorem cover2 (i : S10240x64.Idx) : ∃ t : Fin cfg2.N, (cfg2.win 3).flush t = true ∧ i ∈ ((cfg2.win 3).blk t).view.set := by
  have hi0 : (i 0).val < 10240 := (i 0).isLt
  have hi1 : (i 1).val < 64 := (i 1).isLt
  have hN : cfg2.N = 20 := N_2
  have hlt : (i 0).val / 512 < cfg2.N := by rw [hN]; omega
  obtain ⟨-, -, -, -, -, -, e6, e7⟩ := idx_facts2 ⟨(i 0).val / 512, hlt⟩
  have e6' : win2_3.index ⟨(i 0).val / 512, hlt⟩ (0 : Fin 2) = (i 0).val / 512 := e6
  refine ⟨⟨(i 0).val / 512, hlt⟩, flush2_3 _, ?_⟩
  rw [mem_blk2]
  intro a
  match a with
  | ⟨0, _⟩ =>
    show win2_3.index ⟨(i 0).val / 512, hlt⟩ (0 : Fin 2) * 512 ≤ (i 0).val ∧ (i 0).val < win2_3.index ⟨(i 0).val / 512, hlt⟩ (0 : Fin 2) * 512 + 512
    rw [e6']; omega
  | ⟨1, _⟩ =>
    show win2_3.index ⟨(i 0).val / 512, hlt⟩ (1 : Fin 2) * 64 ≤ (i 1).val ∧ (i 1).val < win2_3.index ⟨(i 0).val / 512, hlt⟩ (1 : Fin 2) * 64 + 64
    rw [e7]; omega

end Blocks

/-- Region 2 (aggregation by the dense adjacency and bias; 512 rows per grid point): after its write-backs the output
    array holds, at `(n, g)`, `(∑ c, A[n, c] · h[c, g]) + b[0, g]`. -/
theorem arr2 (V : (c : Dev nD) → (b : Ref sig .tc) → Buf (Elt Ideal) ((c : Thread nD τ).loc b)) (c : Dev nD) :
    (dat2 (F := Ideal) V c).arrAt 3 cfg2.N
      = fun j => lin (N := 10240) (K := 10240) (M := 64) (V c main_v45) (V c main_v49) j
                  + (V c main_v50 : (⟨2, ![1, 64]⟩ : Shape).Idx → EReal) (ix2 (n0 := 1) (n1 := 64) 0 (j 1)) :=
  (dat2 (F := Ideal) V c).arrAt_eq_of_cover 3 _ (fun t _ => flushed2_eq V c t) cover2

end Cert.KernelIdeal.KReg2

end
-- ==== Proof.DenseNetwork.lean ====
/-
  THE DENSE FORM IS THE NETWORK. A program that first builds the dense adjacency `adj[n, c] = ∑ over edges e from c to n of w e`
  (10240 × 10240: the 10000 nodes padded to a multiple of the row tile), pads the node features with zero rows, and then
  computes both layers as matrix products `adj · h` on the padded arrays, computes on the first 10000 rows the network `G`
  of the specification — when every edge word is a node number and every weight and input entry is a real number. The one
  step that needs real entries is `(∑ e, w e) · h = ∑ e, w e · h` (`dense_eq_edges`); columns past 9999 of `adj` are empty
  sums, so the padded rows of the features never contribute.
-/
import proofs.«402538_j62483184222721_2_alg».proof.Proof.Spec

noncomputable section

open scoped BigOperators

namespace Cert.Gcn

open Idealize.ShloMosaic Idealize.ShloMosaic.ValueIdx

/-- A node number as a row of a 10240-row padded array. -/
def padRow (n : Fin 10000) : Fin 10240 := ⟨n.val, by omega⟩

/-- A dense layer read at explicit coordinates. -/
theorem lin_ix2 {N K M : ℕ} (a : (⟨2, ![N, K]⟩ : Shape).Idx → EReal) (W : (⟨2, ![K, M]⟩ : Shape).Idx → EReal) (r : Fin N) (f : Fin M) :
    lin a W (ix2 r f) = ∑ k : Fin K, a (ix2 r k) * W (ix2 k f) := rfl

/-- One aggregation read at explicit coordinates. -/
theorem agg_ix2 {M : ℕ} (src dst : Edge → BitVec 32) (w : Edge → EReal) (h : (⟨2, ![10000, M]⟩ : Shape).Idx → EReal)
    (n : Fin 10000) (f : Fin M) :
    agg src dst w h (ix2 n f)
      = ∑ e ∈ Finset.univ.filter (fun e : Edge => (nodeOf (dst e)).val = n.val), h (ix2 (nodeOf (src e)) f) * w e := rfl

/-- One aggregation through the dense adjacency: for a padded feature matrix `hK` with real entries that agrees with `h` on
    the first 10000 rows, row `n < 10000` of `adj · hK` is the edge-by-edge aggregation of `h`. -/
theorem dense_agg {M : ℕ} (src dst : Edge → BitVec 32) (w : Edge → EReal)
    (adj : (⟨2, ![10240, 10240]⟩ : Shape).Idx → EReal)
    (hadj : ∀ i, adj i = ∑ e ∈ Finset.univ.filter (fun e : Edge => (dst e).toInt = ((i 0).val : ℤ) ∧ (src e).toInt = ((i 1).val : ℤ)), w e)
    (hs : ∀ e, 0 ≤ (src e).toInt ∧ (src e).toInt < 10000) (hd : ∀ e, 0 ≤ (dst e).toInt ∧ (dst e).toInt < 10000)
    (hw : ∀ e, IsReal (w e))
    (hK : (⟨2, ![10240, M]⟩ : Shape).Idx → EReal) (h : (⟨2, ![10000, M]⟩ : Shape).Idx → EReal)
    (hreal : ∀ i, IsReal (hK i)) (hagree : ∀ (c : Fin 10000) (f : Fin M), hK (ix2 (padRow c) f) = h (ix2 c f))
    (n : Fin 10000) (f : Fin M) :
    lin (N := 10240) (K := 10240) (M := M) adj hK (ix2 (padRow n) f) = agg src dst w h (ix2 n f) := by
  rw [lin_ix2, agg_ix2]
  -- the column of `adj` an edge's weight is summed into: its source, a node number
  let col : Edge → Fin 10240 := fun e => ⟨(src e).toInt.toNat, by have := hs e; omega⟩
  have hcol : ∀ e, col e = padRow (nodeOf (src e)) := by
    intro e
    refine Fin.ext ?_
    have := nodeOf_val_of_range (hs e).1 (hs e).2
    show (src e).toInt.toNat = (nodeOf (src e)).val
    omega
  -- row `n` of `adj`, column by column: the edges into `n`, then those among them whose column is `k`
  have hrow : ∀ k : Fin 10240, adj (ix2 (padRow n) k)
      = ∑ e ∈ (Finset.univ.filter (fun e : Edge => (dst e).toInt = (n.val : ℤ))).filter (fun e => col e = k), w e := by
    intro k
    rw [hadj, Finset.filter_filter]
    refine Finset.sum_congr (Finset.filter_congr fun e _ => ?_) fun _ _ => rfl
    show (dst e).toInt = ((padRow n).val : ℤ) ∧ (src e).toInt = (k.val : ℤ) ↔ (dst e).toInt = (n.val : ℤ) ∧ col e = k
    have := hs e
    constructor
    · rintro ⟨h1, h2⟩
      exact ⟨h1, Fin.ext (by show (src e).toInt.toNat = k.val; omega)⟩
    · rintro ⟨h1, h2⟩
      have h3 : (src e).toInt.toNat = k.val := congrArg Fin.val h2
      exact ⟨h1, by omega⟩
  calc ∑ k : Fin 10240, adj (ix2 (padRow n) k) * hK (ix2 k f)
      = ∑ c : Fin 10240, (∑ e ∈ (Finset.univ.filter (fun e : Edge => (dst e).toInt = (n.val : ℤ))).filter (fun e => col e = c), w e)
          * hK (ix2 c f) := Finset.sum_congr rfl fun k _ => by rw [hrow k]
    _ = ∑ e ∈ Finset.univ.filter (fun e : Edge => (dst e).toInt = (n.val : ℤ)), hK (ix2 (col e) f) * w e :=
        dense_eq_edges _ col w (fun c => hK (ix2 c f)) (fun e _ => hw e) (fun c => hreal _)
    _ = ∑ e ∈ Finset.univ.filter (fun e : Edge => (nodeOf (dst e)).val = n.val), h (ix2 (nodeOf (src e)) f) * w e := by
        refine Finset.sum_congr (Finset.filter_congr fun e _ => ?_) fun e _ => ?_
        · have := nodeOf_val_of_range (hd e).1 (hd e).2
          omega
        · rw [hcol, hagree]

/-- THE DENSE NETWORK IS `G` on the first 10000 rows. -/
theorem dense_network (x0 : (⟨2, ![10000, 128]⟩ : Shape).Idx → EReal) (x1 : (⟨2, ![128, 128]⟩ : Shape).Idx → EReal)
    (x2 : (⟨1, ![128]⟩ : Shape).Idx → EReal) (x3 : (⟨2, ![128, 64]⟩ : Shape).Idx → EReal) (x4 : (⟨1, ![64]⟩ : Shape).Idx → EReal)
    (src dst : Edge → BitVec 32) (w : Edge → EReal)
    (xpad : (⟨2, ![10240, 128]⟩ : Shape).Idx → EReal) (adj : (⟨2, ![10240, 10240]⟩ : Shape).Idx → EReal)
    (b1row : (⟨2, ![1, 128]⟩ : Shape).Idx → EReal) (b2row : (⟨2, ![1, 64]⟩ : Shape).Idx → EReal)
    (hxpad : ∀ i, xpad i = if h : (i 0).val < 10000 then x0 (ix2 (n0 := 10000) (n1 := 128) ⟨(i 0).val, h⟩ (i 1)) else 0)
    (hadj : ∀ i, adj i = ∑ e ∈ Finset.univ.filter (fun e : Edge => (dst e).toInt = ((i 0).val : ℤ) ∧ (src e).toInt = ((i 1).val : ℤ)), w e)
    (hb1 : ∀ k : Fin 128, b1row (ix2 (n0 := 1) (n1 := 128) 0 k) = x2 (ix1 k))
    (hb2 : ∀ g : Fin 64, b2row (ix2 (n0 := 1) (n1 := 64) 0 g) = x4 (ix1 g))
    (hs : ∀ e, 0 ≤ (src e).toInt ∧ (src e).toInt < 10000) (hd : ∀ e, 0 ≤ (dst e).toInt ∧ (dst e).toInt < 10000)
    (hw : ∀ e, IsReal (w e)) (hx0 : ∀ i, IsReal (x0 i)) (hx1 : ∀ i, IsReal (x1 i)) (hx2 : ∀ i, IsReal (x2 i)) (hx3 : ∀ i, IsReal (x3 i))
    (n : Fin 10000) (g : Fin 64) :
    lin (N := 10240) (K := 10240) (M := 64) adj
        (lin (N := 10240) (K := 128) (M := 64)
          (fun j => max (lin (N := 10240) (K := 10240) (M := 128) adj (lin (N := 10240) (K := 128) (M := 128) xpad x1) j
                          + b1row (ix2 (n0 := 1) (n1 := 128) 0 (j 1))) 0) x3)
        (ix2 (padRow n) g)
      + b2row (ix2 (n0 := 1) (n1 := 64) 0 g)
    = G x0 x1 x2 x3 x4 src dst w (ix2 n g) := by
  -- every entry that enters a product is a real number
  have hxp : ∀ i, IsReal (xpad i) := by
    intro i
    rw [hxpad]
    split
    · exact hx0 _
    · exact isReal_zero
  have hadjR : ∀ i, IsReal (adj i) := by
    intro i
    rw [hadj]
    exact IsReal.sum _ _ fun e _ => hw e
  have hb1R : ∀ k : Fin 128, IsReal (b1row (ix2 (n0 := 1) (n1 := 128) 0 k)) := by
    intro k
    rw [hb1]
    exact hx2 _
  -- the padded first dense layer: real everywhere, the unpadded one on the first 10000 rows
  have hK1R : ∀ i, IsReal (lin (N := 10240) (K := 128) (M := 128) xpad x1 i) := isReal_lin xpad x1 hxp hx1
  have hK1A : ∀ (c : Fin 10000) (f : Fin 128),
      lin (N := 10240) (K := 128) (M := 128) xpad x1 (ix2 (padRow c) f) = lin x0 x1 (ix2 c f) := by
    intro c f
    rw [lin_ix2, lin_ix2]
    refine Finset.sum_congr rfl fun k _ => ?_
    have hx : xpad (ix2 (padRow c) k) = x0 (ix2 c k) := (hxpad _).trans (dif_pos c.isLt)
    rw [hx]
  -- its aggregation through the dense adjacency
  have hA1R : ∀ i, IsReal (lin (N := 10240) (K := 10240) (M := 128) adj (lin (N := 10240) (K := 128) (M := 128) xpad x1) i) :=
    isReal_lin adj _ hadjR hK1R
  have hA1A : ∀ (c : Fin 10000) (f : Fin 128),
      lin (N := 10240) (K := 10240) (M := 128) adj (lin (N := 10240) (K := 128) (M := 128) xpad x1) (ix2 (padRow c) f)
        = agg src dst w (lin x0 x1) (ix2 c f) :=
    fun c f => dense_agg src dst w adj hadj hs hd hw _ _ hK1R hK1A c f
  -- the padded hidden matrix: real everywhere, the network's hidden matrix on the first 10000 rows
  have hHR : ∀ j : (⟨2, ![10240, 128]⟩ : Shape).Idx,
      IsReal (max (lin (N := 10240) (K := 10240) (M := 128) adj (lin (N := 10240) (K := 128) (M := 128) xpad x1) j
                + b1row (ix2 (n0 := 1) (n1 := 128) 0 (j 1))) 0) :=
    fun j => ((hA1R j).add (hb1R (j 1))).max isReal_zero
  have hHA : ∀ (c : Fin 10000) (f : Fin 128),
      max (lin (N := 10240) (K := 10240) (M := 128) adj (lin (N := 10240) (K := 128) (M := 128) xpad x1) (ix2 (padRow c) f)
            + b1row (ix2 (n0 := 1) (n1 := 128) 0 f)) 0
        = hidden x0 x1 x2 src dst w (ix2 c f) := by
    intro c f
    rw [hA1A, hb1]
    rfl
  -- the padded second dense layer
  have hL2R := isReal_lin (N := 10240) (K := 128) (M := 64)
    (fun j => max (lin (N := 10240) (K := 10240) (M := 128) adj (lin (N := 10240) (K := 128) (M := 128) xpad x1) j
                    + b1row (ix2 (n0 := 1) (n1 := 128) 0 (j 1))) 0) x3 hHR hx3
  have hL2A : ∀ (c : Fin 10000) (g : Fin 64),
      lin (N := 10240) (K := 128) (M := 64)
          (fun j => max (lin (N := 10240) (K := 10240) (M := 128) adj (lin (N := 10240) (K := 128) (M := 128) xpad x1) j
                          + b1row (ix2 (n0 := 1) (n1 := 128) 0 (j 1))) 0) x3 (ix2 (padRow c) g)
        = lin (hidden x0 x1 x2 src dst w) x3 (ix2 c g) := by
    intro c g
    rw [lin_ix2, lin_ix2]
    refine Finset.sum_congr rfl fun k _ => ?_
    have hk := hHA c k
    exact congrArg (· * x3 (ix2 k g)) hk
  -- its aggregation, and the second bias
  rw [dense_agg src dst w adj hadj hs hd hw _ _ hL2R hL2A n g, hb2]
  rfl

end Cert.Gcn

end
-- ==== Proof.KEntries.lean ====
/-
  The kernel host program's layout operations (pad, reshape to a row, leading-rows slice) read at an entry.
-/
import proofs.«402538_j62483184222721_2_alg».proof.Proof.Gen.KernelIdeal
import proofs.«402538_j62483184222721_2_alg».proof.Proof.DenseNetwork
import Idealize.ShloMosaic.Lib.Pipeline.Value
import Idealize.ShloMosaic.Lib.KernelVsHost
import Idealize.ShloMosaic.Lib.ValueIdx
import Idealize.ShloMosaic.PureOps.Ideal.Laws

set_option maxRecDepth 16384

noncomputable section

open scoped BigOperators

namespace Cert.KernelIdeal.KEntries

open Idealize.ShloMosaic Idealize.ShloMosaic.TcCoe Idealize.ShloMosaic.ValueIdx
open Cert.KernelIdeal
open Facts₀ Facts
variable [Cert.KernelIdeal.Facts]

/-! Small layout operations of the kernel's host program read at an entry. -/

/-- The padded node features: a row below 10000 is the node's row, a padding row is the padding value. -/
theorem pad_rows_apply {α : Type} (x : S10000x128.Idx → α) (v : S_.Idx → α) (i : S10240x128.Idx) :
    pad S10240x128 ![0, 0] ![240, 0] ![0, 0] x v pads_S10000x128_S10240x128_02400_000 h_S_ i
      = if h : (i 0).val < 10000 then x (ix2 (n0 := 10000) (n1 := 128) ⟨(i 0).val, h⟩ (i 1)) else v ix0 := by
  by_cases h : (i 0).val < 10000
  · rw [dif_pos h]
    refine pad_apply_of_inside ![0, 0] ![240, 0] ![0, 0] x v pads_S10000x128_S10240x128_02400_000 h_S_ i
      (ix2 (n0 := 10000) (n1 := 128) ⟨(i 0).val, h⟩ (i 1)) fun a => ?_
    match a with
    | ⟨0, _⟩ => show (i 0).val = 0 + (i 0).val * (0 + 1); omega
    | ⟨1, _⟩ => show (i 1).val = 0 + (i 1).val * (0 + 1); omega
  · rw [dif_neg h]
    refine (pad_apply_of_not_inside ![0, 0] ![240, 0] ![0, 0] x v pads_S10000x128_S10240x128_02400_000 h_S_ i 0 ?_).trans
      (congrArg v (eq_ix0 _))
    rintro ⟨-, -, h3⟩
    have h3' : ((i 0).val - 0) / (0 + 1) < 10000 := h3
    omega

/-- The padding value: the integer zero converted to a float is zero. -/
theorem pad_value : (sitofp (F := Ideal) .f32 (constantI S_ 32 0#32) : S_.Idx → EReal) ix0 = 0 := by
  rw [sitofp_apply]
  show (((0#32 : BitVec 32).toInt : ℝ) : EReal) = 0
  simp

/-- A bias reshaped to one row, read at a column. -/
theorem bias1_row_apply {α : Type} (x : S128.Idx → α) (k : Fin 128) :
    shapeCast S1x128 x shapeCasts_S128_S1x128 (ix2 (n0 := 1) (n1 := 128) 0 k) = x (ix1 k) := by
  exact shapeCast_apply x shapeCasts_S128_S1x128 (ix2 (n0 := 1) (n1 := 128) 0 k) (ix1 k) (by
    rw [Shape.rowMajor_val_one, Shape.rowMajor_val_two]
    show k.val = 0 * 128 + k.val
    omega)
theorem bias2_row_apply {α : Type} (x : S64.Idx → α) (g : Fin 64) :
    shapeCast S1x64 x shapeCasts_S64_S1x64 (ix2 (n0 := 1) (n1 := 64) 0 g) = x (ix1 g) := by
  exact shapeCast_apply x shapeCasts_S64_S1x64 (ix2 (n0 := 1) (n1 := 64) 0 g) (ix1 g) (by
    rw [Shape.rowMajor_val_one, Shape.rowMajor_val_two]
    show g.val = 0 * 64 + g.val
    omega)

/-- The first 10000 rows of a 10240-row array, read at an entry. -/
theorem head_rows_apply {α : Type} (y : S10240x64.Idx → α) (n : Fin 10000) (g : Fin 64) :
    extractStridedSlice S10000x64 ![0, 0] y slices_S10240x64_S10000x64_0_0 (ix2 (n0 := 10000) (n1 := 64) n g)
      = y (ix2 (n0 := 10240) (n1 := 64) (Cert.Gcn.padRow n) g) := by
  exact extractStridedSlice_apply ![0, 0] y slices_S10240x64_S10000x64_0_0 (ix2 (n0 := 10000) (n1 := 64) n g)
    (ix2 (n0 := 10240) (n1 := 64) (Cert.Gcn.padRow n) g) fun a => by
      match a with
      | ⟨0, _⟩ => show n.val = 0 + n.val; omega
      | ⟨1, _⟩ => show g.val = 0 + g.val; omega

end Cert.KernelIdeal.KEntries

end
-- ==== Proof.LibScatterGather.lean ====
/-
  `stablehlo.scatter` with one scalar start index per update and `stablehlo.gather` of rows or scalars at one start
  index per result, READ AT AN INDEX, for the dimension numbers of a segment sum of a vector or of a matrix's rows, of an
  accumulation at (row, column) index pairs, and of taking entries of a vector or rows of a matrix at an index:

  * an update lands on an operand element exactly when its start index, read as a signed integer, IS that element's
    coordinate on the scattered axis (and, for a row update, the window coordinate is the element's column): nothing
    is clamped, an index outside the operand drops the update;
  * a gather reads the operand at the start index read signed and CLAMPED into the operand's range.

  General in the extents; the dimension numbers are built from a `wf` fact decided on a program's literal shapes, so a
  printed program's record is one of these by `rfl`.
-/
import Idealize.ShloMosaic.PureOps.Ideal
import Idealize.ShloMosaic.Lib.ValueIdx

noncomputable section

namespace Cert.LibScatterGather

open Idealize.ShloMosaic Idealize.ShloMosaic.ValueIdx

/-! ## The landing index of an update, in general -/

/-- An update lands on operand element `i` exactly when, on every operand axis, its start plus its window
    coordinate IS `i`'s coordinate: the range test in the definition holds because `i`'s coordinates are in range. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv : (d.start j idx a + (d.window j a : ℤ)).toNat = (i a).val := congrArg Fin.val hf
      have := (h a).1
      omega
    · intro hall
      refine congrArg some (funext fun a => Fin.ext ?_)
      show (d.start j idx a + (d.window j a : ℤ)).toNat = (i a).val
      rw [hall a, Int.toNat_natCast]
  · rename_i h
    constructor
    · intro heq; cases heq
    · intro hall
      refine absurd (fun a => ?_) h
      rw [hall a]
      exact ⟨Int.natCast_nonneg _, Int.ofNat_lt.mpr (i a).isLt⟩

/-- The operand's kept axes are the ones that are not inserted window axes. -/
theorem mem_sKept_iff {s si u : Shape} (d : ScatterDims s si u) (a : Fin s.rank) : a ∈ d.sKept ↔ a ∉ d.insertedWindowDims := by
  simp [ScatterDims.sKept, Shape.kept, List.mem_filter, List.mem_finRange]

/-! ## Scatter: scalars into a vector (`segment_sum` of a vector) -/

/-- Dimension numbers of a scatter of `E` scalars into a vector of `N`, the indices an `[E, 1]` array. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the one operand axis the start is the update's index word, read signed. -/
theorem vecScatter_start {N E w : Nat} (wf) (idx : IVec ⟨2, ![E, 1]⟩ w) (j : (⟨1, ![E]⟩ : Shape).Idx) :
    (vecScatter N E wf).start j idx 0 = (idx (ix2 (n0 := E) (n1 := 1) (j 0) 0)).toInt := by
  have hm : (0 : Fin 1) ∈ (vecScatter N E wf).scatterDimsToOperandDims := List.mem_singleton.mpr rfl
  unfold ScatterDims.start
  rw [dif_pos hm]
  have hsi : (vecScatter N E wf).siIdx j ⟨List.idxOf (0 : Fin 1) (vecScatter N E wf).scatterDimsToOperandDims,
      List.idxOf_lt_length_iff.2 hm⟩ = ix2 (n0 := E) (n1 := 1) (j 0) 0 := by
    funext b; refine Fin.ext ?_
    match b with
    | ⟨0, _⟩ => rfl
    | ⟨1, _⟩ => rfl
  rw [hsi]

/-- The one operand axis is an inserted one: no window coordinate. -/
theorem vecScatter_window {N E : Nat} (wf) (j : (⟨1, ![E]⟩ : Shape).Idx) : (vecScatter N E wf).window j 0 = 0 := by
  unfold ScatterDims.window
  rw [dif_neg (fun h => (mem_sKept_iff _ _).mp h (List.mem_singleton.mpr rfl))]

/-- Update `j` lands on element `i` exactly when its start index is `i`'s coordinate. -/
theorem vecScatter_resultIdx {N E w : Nat} (wf) (idx : IVec ⟨2, ![E, 1]⟩ w) (j : (⟨1, ![E]⟩ : Shape).Idx) (i : (⟨1, ![N]⟩ : Shape).Idx) :
    (vecScatter N E wf).resultIdx? j idx = some i ↔ (idx (ix2 (n0 := E) (n1 := 1) (j 0) 0)).toInt = ((i 0).val : ℤ) := by
  rw [resultIdx?_eq_some_iff]
  constructor
  · intro h
    have h0 := h 0
    rw [vecScatter_start, vecScatter_window] at h0
    omega
  · intro h a
    obtain rfl : a = 0 := Subsingleton.elim _ _
    rw [vecScatter_start, vecScatter_window]
    omega

/-! ## Scatter: rows into a matrix (`segment_sum` of a matrix) -/

/-- Dimension numbers of a scatter of `E` rows of `M` into an `[N, M]` matrix, the indices an `[E, 1]` array. -/
abbrev rowScatter (N M E : Nat) (wf : ScatterDims.WF ⟨2, ![N, M]⟩ ⟨2, ![E, 1]⟩ ⟨2, ![E, M]⟩ [1] [0] [0] 1) :
    ScatterDims ⟨2, ![N, M]⟩ ⟨2, ![E, 1]⟩ ⟨2, ![E, M]⟩ where
  updateWindowDims := [1]
  insertedWindowDims := [0]
  scatterDimsToOperandDims := [0]
  indexVectorDim := 1
  wf := wf

/-- On the row axis the start is the update row's index word, read signed. -/
theorem rowScatter_start0 {N M E w : Nat} (wf) (idx : IVec ⟨2, ![E, 1]⟩ w) (j : (⟨2, ![E, M]⟩ : Shape).Idx) :
    (rowScatter N M E wf).start j idx 0 = (idx (ix2 (n0 := E) (n1 := 1) (j 0) 0)).toInt := by
  have hm : (0 : Fin 2) ∈ (rowScatter N M E wf).scatterDimsToOperandDims := List.mem_singleton.mpr rfl
  unfold ScatterDims.start
  rw [dif_pos hm]
  have hsi : (rowScatter N M E wf).siIdx j ⟨List.idxOf (0 : Fin 2) (rowScatter N M E wf).scatterDimsToOperandDims,
      List.idxOf_lt_length_iff.2 hm⟩ = ix2 (n0 := E) (n1 := 1) (j 0) 0 := by
    funext b; refine Fin.ext ?_
    match b with
    | ⟨0, _⟩ => rfl
    | ⟨1, _⟩ => rfl
  rw [hsi]

/-- The column axis is not a scattered one: its start is `0`. -/
theorem rowScatter_start1 {N M E w : Nat} (wf) (idx : IVec ⟨2, ![E, 1]⟩ w) (j : (⟨2, ![E, M]⟩ : Shape).Idx) :
    (rowScatter N M E wf).start j idx 1 = 0 := by
  unfold ScatterDims.start
  rw [dif_neg (show (1 : Fin 2) ∉ [0] by decide)]

/-- The row axis is an inserted one: no window coordinate. -/
theorem rowScatter_window0 {N M E : Nat} (wf) (j : (⟨2, ![E, M]⟩ : Shape).Idx) : (rowScatter N M E wf).window j 0 = 0 := by
  unfold ScatterDims.window
  rw [dif_neg (fun h => (mem_sKept_iff _ _).mp h (List.mem_singleton.mpr rfl))]

/-- The column axis is the one kept axis, read by the update's one window axis: its window coordinate is the
    update's column. -/
theorem rowScatter_window1 {N M E : Nat} (wf) (j : (⟨2, ![E, M]⟩ : Shape).Idx) : (rowScatter N M E wf).window j 1 = (j 1).val := by
  unfold ScatterDims.window
  rw [dif_pos ((mem_sKept_iff _ _).mpr (show (1 : Fin 2) ∉ [0] by decide))]
  rfl

/-- Update `(e, f')` lands on element `(n, f)` exactly when `e`'s start index is `n` and `f' = f`. -/
theorem rowScatter_resultIdx {N M E w : Nat} (wf) (idx : IVec ⟨2, ![E, 1]⟩ w) (j : (⟨2, ![E, M]⟩ : Shape).Idx) (i : (⟨2, ![N, M]⟩ : Shape).Idx) :
    (rowScatter N M E wf).resultIdx? j idx = some i ↔
      (idx (ix2 (n0 := E) (n1 := 1) (j 0) 0)).toInt = ((i 0).val : ℤ) ∧ (j 1).val = (i 1).val := by
  rw [resultIdx?_eq_some_iff]
  constructor
  · intro h
    have h0 := h 0
    have h1 := h 1
    rw [rowScatter_start0, rowScatter_window0] at h0
    rw [rowScatter_start1, rowScatter_window1] at h1
    exact ⟨by omega, by omega⟩
  · rintro ⟨h0, h1⟩ a
    match a with
    | ⟨0, _⟩ =>
      show (rowScatter N M E wf).start j idx 0 + (((rowScatter N M E wf).window j 0 : ℕ) : ℤ) = ((i 0).val : ℤ)
      rw [rowScatter_start0, rowScatter_window0]; omega
    | ⟨1, _⟩ =>
      show (rowScatter N M E wf).start j idx 1 + (((rowScatter N M E wf).window j 1 : ℕ) : ℤ) = ((i 1).val : ℤ)
      rw [rowScatter_start1, rowScatter_window1]; omega

/-! ## Scatter: scalars into a matrix at (row, column) index pairs (`x.at[i, j].add(v)`) -/

/-- Dimension numbers of a scatter of `E` scalars into an `[N, M]` matrix, the index pairs an `[E, 2]` array. -/
abbrev pairScatter (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- On the row axis the start is the first word of the update's index pair, read signed. -/
theorem pairScatter_start0 {N M E w : Nat} (wf) (idx : IVec ⟨2, ![E, 2]⟩ w) (j : (⟨1, ![E]⟩ : Shape).Idx) :
    (pairScatter N M E wf).start j idx 0 = (idx (ix2 (n0 := E) (n1 := 2) (j 0) 0)).toInt := by
  have hm : (0 : Fin 2) ∈ (pairScatter N M E wf).scatterDimsToOperandDims := List.mem_cons_self
  unfold ScatterDims.start
  rw [dif_pos hm]
  have hsi : (pairScatter N M E wf).siIdx j ⟨List.idxOf (0 : Fin 2) (pairScatter N M E wf).scatterDimsToOperandDims,
      List.idxOf_lt_length_iff.2 hm⟩ = ix2 (n0 := E) (n1 := 2) (j 0) 0 := by
    funext b; refine Fin.ext ?_
    match b with
    | ⟨0, _⟩ => rfl
    | ⟨1, _⟩ => rfl
  rw [hsi]

/-- On the column axis the start is the second word of the update's index pair, read signed. -/
theorem pairScatter_start1 {N M E w : Nat} (wf) (idx : IVec ⟨2, ![E, 2]⟩ w) (j : (⟨1, ![E]⟩ : Shape).Idx) :
    (pairScatter N M E wf).start j idx 1 = (idx (ix2 (n0 := E) (n1 := 2) (j 0) 1)).toInt := by
  have hm : (1 : Fin 2) ∈ (pairScatter N M E wf).scatterDimsToOperandDims :=
    List.mem_cons_of_mem _ (List.mem_singleton.mpr rfl)
  unfold ScatterDims.start
  rw [dif_pos hm]
  have hsi : (pairScatter N M E wf).siIdx j ⟨List.idxOf (1 : Fin 2) (pairScatter N M E wf).scatterDimsToOperandDims,
      List.idxOf_lt_length_iff.2 hm⟩ = ix2 (n0 := E) (n1 := 2) (j 0) 1 := by
    funext b; refine Fin.ext ?_
    match b with
    | ⟨0, _⟩ => rfl
    | ⟨1, _⟩ => rfl
  rw [hsi]

/-- Both operand axes are inserted ones: no window coordinate on either. -/
theorem pairScatter_window {N M E : Nat} (wf) (j : (⟨1, ![E]⟩ : Shape).Idx) (a : Fin 2) : (pairScatter N M E wf).window j a = 0 := by
  unfold ScatterDims.window
  rw [dif_neg (fun h => (mem_sKept_iff _ _).mp h (by
    show a ∈ [(0 : Fin 2), 1]
    match a with
    | ⟨0, _⟩ => exact List.mem_cons_self
    | ⟨1, _⟩ => exact List.mem_cons_of_mem _ (List.mem_singleton.mpr rfl)))]

/-- Update `e` lands on element `(n, c)` exactly when its index pair is `(n, c)`. -/
theorem pairScatter_resultIdx {N M E w : Nat} (wf) (idx : IVec ⟨2, ![E, 2]⟩ w) (j : (⟨1, ![E]⟩ : Shape).Idx) (i : (⟨2, ![N, M]⟩ : Shape).Idx) :
    (pairScatter N M E wf).resultIdx? j idx = some i ↔
      (idx (ix2 (n0 := E) (n1 := 2) (j 0) 0)).toInt = ((i 0).val : ℤ) ∧ (idx (ix2 (n0 := E) (n1 := 2) (j 0) 1)).toInt = ((i 1).val : ℤ) := by
  rw [resultIdx?_eq_some_iff]
  constructor
  · intro h
    have h0 := h 0
    have h1 := h 1
    rw [pairScatter_start0, pairScatter_window] at h0
    rw [pairScatter_start1, pairScatter_window] at h1
    exact ⟨by omega, by omega⟩
  · rintro ⟨h0, h1⟩ a
    match a with
    | ⟨0, _⟩ =>
      show (pairScatter N M E wf).start j idx 0 + (((pairScatter N M E wf).window j 0 : ℕ) : ℤ) = ((i 0).val : ℤ)
      rw [pairScatter_start0, pairScatter_window]; omega
    | ⟨1, _⟩ =>
      show (pairScatter N M E wf).start j idx 1 + (((pairScatter N M E wf).window j 1 : ℕ) : ℤ) = ((i 1).val : ℤ)
      rw [pairScatter_start1, pairScatter_window]; omega

/-! ## Gather: scalars of a vector (`x[i]`) -/

/-- Dimension numbers of a gather of `E` scalars from a vector of `N`, the start indices an `[E, 1]` array. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the one operand axis the start is the index word, read signed and clamped into `[0, N − 1]`. -/
theorem vecGather_start {N E w : Nat} (wf) (idx : IVec ⟨2, ![E, 1]⟩ w) (j : (⟨1, ![E]⟩ : Shape).Idx) :
    (vecGather N E wf).start j idx 0 = min (idx (ix2 (n0 := E) (n1 := 1) (j 0) 0)).toInt.toNat (N - 1) := by
  have hm : (0 : Fin 1) ∈ (vecGather N E wf).startIndexMap := List.mem_singleton.mpr rfl
  unfold GatherDims.start
  rw [dif_pos hm]
  have hsi : (vecGather N E wf).siIdx j ⟨List.idxOf (0 : Fin 1) (vecGather N E wf).startIndexMap,
      List.idxOf_lt_length_iff.2 hm⟩ = ix2 (n0 := E) (n1 := 1) (j 0) 0 := by
    funext b; refine Fin.ext ?_
    match b with
    | ⟨0, _⟩ => rfl
    | ⟨1, _⟩ => rfl
  rw [hsi]
  rfl

/-- The gather at `e`: the operand at the start index, read signed and clamped into `[0, N − 1]`. -/
theorem vecGather_apply {α : Type} {N E w : Nat} (hN : 0 < N) (wf) (x : (⟨1, ![N]⟩ : Shape).Idx → α) (idx : IVec ⟨2, ![E, 1]⟩ w)
    (j : (⟨1, ![E]⟩ : Shape).Idx) :
    Host.gather (vecGather N E wf) x idx j = x (ix1 ⟨min (idx (ix2 (n0 := E) (n1 := 1) (j 0) 0)).toInt.toNat (N - 1), by omega⟩) := by
  unfold Host.gather
  congr 1
  funext a
  obtain rfl : a = 0 := Subsingleton.elim _ _
  refine Fin.ext ?_
  show (vecGather N E wf).start j idx 0 + (vecGather N E wf).batchCoord j 0 + (vecGather N E wf).offCoord j 0 = _
  rw [vecGather_start, GatherDims.batchCoord_eq_zero _ _ _ List.not_mem_nil,
    GatherDims.offCoord_eq_zero _ _ _ (fun h => ((GatherDims.mem_sKept _ _).mp h).1 (List.mem_singleton.mpr rfl))]
  rfl

/-! ## Gather: rows of a matrix (`x[i, :]`) -/

/-- Dimension numbers of a gather of `E` rows from an `[N, M]` matrix, the start indices an `[E, 1]` array. -/
abbrev rowGather (N M E : Nat) (wf : GatherDims.WF ⟨2, ![N, M]⟩ ⟨2, ![E, 1]⟩ ⟨2, ![E, M]⟩ [1] [0] [] [0] [] 1 ![1, M]) :
    GatherDims ⟨2, ![N, M]⟩ ⟨2, ![E, 1]⟩ ⟨2, ![E, M]⟩ where
  offsetDims := [1]
  collapsedSliceDims := [0]
  operandBatchingDims := []
  startIndicesBatchingDims := []
  startIndexMap := [0]
  indexVectorDim := 1
  sliceSizes := ![1, M]
  wf := wf

/-- On the row axis the start is the index word, read signed and clamped into `[0, N − 1]`. -/
theorem rowGather_start0 {N M E w : Nat} (wf) (idx : IVec ⟨2, ![E, 1]⟩ w) (j : (⟨2, ![E, M]⟩ : Shape).Idx) :
    (rowGather N M E wf).start j idx 0 = min (idx (ix2 (n0 := E) (n1 := 1) (j 0) 0)).toInt.toNat (N - 1) := by
  have hm : (0 : Fin 2) ∈ (rowGather N M E wf).startIndexMap := List.mem_singleton.mpr rfl
  unfold GatherDims.start
  rw [dif_pos hm]
  have hsi : (rowGather N M E wf).siIdx j ⟨List.idxOf (0 : Fin 2) (rowGather N M E wf).startIndexMap,
      List.idxOf_lt_length_iff.2 hm⟩ = ix2 (n0 := E) (n1 := 1) (j 0) 0 := by
    funext b; refine Fin.ext ?_
    match b with
    | ⟨0, _⟩ => rfl
    | ⟨1, _⟩ => rfl
  rw [hsi]
  rfl

/-- The column axis is not in the start index map: its start is `0`. -/
theorem rowGather_start1 {N M E w : Nat} (wf) (idx : IVec ⟨2, ![E, 1]⟩ w) (j : (⟨2, ![E, M]⟩ : Shape).Idx) :
    (rowGather N M E wf).start j idx 1 = 0 := by
  unfold GatherDims.start
  rw [dif_neg (show (1 : Fin 2) ∉ [0] by decide)]

/-- The row axis is collapsed: no offset coordinate. -/
theorem rowGather_off0 {N M E : Nat} (wf) (j : (⟨2, ![E, M]⟩ : Shape).Idx) : (rowGather N M E wf).offCoord j 0 = 0 :=
  GatherDims.offCoord_eq_zero _ _ _ (fun h => ((GatherDims.mem_sKept _ _).mp h).1 (List.mem_singleton.mpr rfl))

/-- The column axis is the one kept axis, read by the result's one offset axis: its offset coordinate is the
    result's column. -/
theorem rowGather_off1 {N M E : Nat} (wf) (j : (⟨2, ![E, M]⟩ : Shape).Idx) : (rowGather N M E wf).offCoord j 1 = (j 1).val := by
  unfold GatherDims.offCoord
  rw [dif_pos ((GatherDims.mem_sKept _ _).mpr ⟨show (1 : Fin 2) ∉ [0] by decide, List.not_mem_nil⟩)]
  rfl

/-- The gather at `(e, f)`: the operand's row at the start index, read signed and clamped into `[0, N − 1]`, column `f`. -/
theorem rowGather_apply {α : Type} {N M E w : Nat} (hN : 0 < N) (wf) (x : (⟨2, ![N, M]⟩ : Shape).Idx → α) (idx : IVec ⟨2, ![E, 1]⟩ w)
    (j : (⟨2, ![E, M]⟩ : Shape).Idx) :
    Host.gather (rowGather N M E wf) x idx j
      = x (ix2 (n0 := N) (n1 := M) ⟨min (idx (ix2 (n0 := E) (n1 := 1) (j 0) 0)).toInt.toNat (N - 1), by omega⟩ (j 1)) := by
  unfold Host.gather
  congr 1
  funext a
  refine Fin.ext ?_
  show (rowGather N M E wf).start j idx a + (rowGather N M E wf).batchCoord j a + (rowGather N M E wf).offCoord j a = _
  rw [GatherDims.batchCoord_eq_zero _ _ _ List.not_mem_nil, Nat.add_zero]
  match a with
  | ⟨0, _⟩ =>
    show (rowGather N M E wf).start j idx 0 + (rowGather N M E wf).offCoord j 0 = _
    rw [rowGather_start0, rowGather_off0]; rfl
  | ⟨1, _⟩ =>
    show (rowGather N M E wf).start j idx 1 + (rowGather N M E wf).offCoord j 1 = _
    rw [rowGather_start1, rowGather_off1, Nat.zero_add]

end Cert.LibScatterGather

end
-- ==== Proof.KAdj.lean ====
/-
  The dense adjacency the kernel's host program scatters together, and what it holds at an entry.
-/
import proofs.«402538_j62483184222721_2_alg».proof.Proof.Gen.KernelIdeal
import proofs.«402538_j62483184222721_2_alg».proof.Proof.LibScatterGather
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KAdj

open Idealize.ShloMosaic Idealize.ShloMosaic.TcCoe Idealize.ShloMosaic.ValueIdx
open Cert.KernelIdeal Cert.LibScatterGather
open Facts₀ Facts
variable [Cert.KernelIdeal.Facts]

/-- The dense adjacency as the kernel's host program builds it from the edge words and the edge weights: a zero
    10240 × 10240 matrix, each weight added at (destination word, source word) — a negative word first wrapped by 10240, an
    update outside the matrix dropped —, then the change of float format. -/
def adjOf {F : FTy → Type} [FloatOps F] (src dst : IVec S650000 32) (w : FVec F S650000 .f32) : FVec F S10240x10240 .bf16 :=
  truncf .bf16
    (Host.scatterAdd scatter_S10240x10240_S650000x2_S650000_n_01_01_1
      (broadcastInDim S10240x10240 ![] bcast_S_S10240x10240 (constant S_ .f32 0x00000000#32))
      (concatenate S650000x2 1
        [⟨S650000x1, broadcastInDim S650000x1 ![0] bcast_S650000_S650000x1_0
            (select (cmpi .slt dst (broadcastInDim S650000 ![] bcast_S_S650000 (constantI S_ 32 0#32)))
              (addi dst (broadcastInDim S650000 ![] bcast_S_S650000 (constantI S_ 32 10240#32))) dst)⟩,
         ⟨S650000x1, broadcastInDim S650000x1 ![0] bcast_S650000_S650000x1_0
            (select (cmpi .slt src (broadcastInDim S650000 ![] bcast_S_S650000 (constantI S_ 32 0#32)))
              (addi src (broadcastInDim S650000 ![] bcast_S_S650000 (constantI S_ 32 10240#32))) src)⟩]
        concatenates_S650000x1_S650000x1_S650000x2_d1)
      w)
    bitsLt_bf16_f32

/-! ## The pieces, read at an index -/

/-- The printed dimension numbers are the general ones of a scatter at (row, column) index pairs. -/
theorem pair_eq : scatter_S10240x10240_S650000x2_S650000_n_01_01_1
    = pairScatter 10240 10240 650000 scatter_S10240x10240_S650000x2_S650000_n_01_01_1_wf := rfl

/-- The matrix the scatter starts from is zero. -/
theorem zeros_apply (i : S10240x10240.Idx) :
    (broadcastInDim S10240x10240 ![] bcast_S_S10240x10240 (constant (F := Ideal) S_ .f32 0x00000000#32) : S10240x10240.Idx → EReal) i = 0 := by
  rw [broadcastInDim_apply _ bcast_S_S10240x10240 _ i ix0 (fun a => a.elim0), constant_apply, Ideal.ofBits_zero_f32]

/-- The wrap of a negative word leaves a nonnegative word unchanged, whatever is added. -/
theorem wrap_of_nonneg (a c : BitVec 32) (h0 : 0 ≤ a.toInt) :
    Scalar.select (IntOp.cmpi .slt a 0#32) (IntOp.addi a c) a = a := by
  have hlt : a.slt 0#32 = false := by
    rw [BitVec.slt_eq_decide, decide_eq_false_iff_not]
    show ¬ a.toInt < 0
    omega
  show Scalar.select (BitVec.ofBool (a.slt 0#32)) (IntOp.addi a c) a = a
  rw [hlt, BitVec.ofBool_false]
  exact select_zero _ _

/-- An array of words none of which is negative is its own wrap. -/
theorem wrapped_eq (v : IVec S650000 32) (hv : ∀ e, 0 ≤ (v e).toInt) :
    select (cmpi .slt v (broadcastInDim S650000 ![] bcast_S_S650000 (constantI S_ 32 0#32)))
      (addi v (broadcastInDim S650000 ![] bcast_S_S650000 (constantI S_ 32 10240#32))) v = v := by
  funext e
  show Scalar.select (IntOp.cmpi .slt (v e) (broadcastInDim S650000 ![] bcast_S_S650000 (constantI S_ 32 0#32) e))
      (IntOp.addi (v e) (broadcastInDim S650000 ![] bcast_S_S650000 (constantI S_ 32 10240#32) e)) (v e) = v e
  rw [broadcastInDim_apply _ bcast_S_S650000 (constantI S_ 32 0#32) e ix0 (fun a => a.elim0),
    broadcastInDim_apply _ bcast_S_S650000 (constantI S_ 32 10240#32) e ix0 (fun a => a.elim0)]
  exact wrap_of_nonneg _ _ (hv e)

/-- A vector of words as a one-column matrix, read at `(e, 0)`. -/
theorem column_apply (v : IVec S650000 32) (e : S650000.Idx) :
    broadcastInDim S650000x1 ![0] bcast_S650000_S650000x1_0 v (ix2 (n0 := 650000) (n1 := 1) (e 0) 0) = v e :=
  broadcastInDim_apply _ bcast_S650000_S650000x1_0 v _ e (fun a => match a with
    | ⟨0, _⟩ => by show (e 0).val = if (650000 : Nat) = 1 then 0 else (e 0).val; rw [if_neg (by decide)])

/-- Two one-column matrices joined along the columns: column 0 is the left one. -/
theorem pairs_apply_left (A B : IVec S650000x1 32) (e : S650000.Idx) :
    concatenate S650000x2 1 [⟨S650000x1, A⟩, ⟨S650000x1, B⟩] concatenates_S650000x1_S650000x1_S650000x2_d1
        (ix2 (n0 := 650000) (n1 := 2) (e 0) 0) = A (ix2 (n0 := 650000) (n1 := 1) (e 0) 0) :=
  concatenate_pair_apply_left 1 A B concatenates_S650000x1_S650000x1_S650000x2_d1 _ rfl _ (fun b => match b with
    | ⟨0, _⟩ => rfl
    | ⟨1, _⟩ => rfl)

/-- Two one-column matrices joined along the columns: column 1 is the right one. -/
theorem pairs_apply_right (A B : IVec S650000x1 32) (e : S650000.Idx) :
    concatenate S650000x2 1 [⟨S650000x1, A⟩, ⟨S650000x1, B⟩] concatenates_S650000x1_S650000x1_S650000x2_d1
        (ix2 (n0 := 650000) (n1 := 2) (e 0) 1) = B (ix2 (n0 := 650000) (n1 := 1) (e 0) 0) :=
  concatenate_pair_apply_right 1 A B concatenates_S650000x1_S650000x1_S650000x2_d1 _ rfl rfl _ (fun b => match b with
    | ⟨0, _⟩ => fun _ => rfl
    | ⟨1, _⟩ => fun hb => absurd rfl hb) rfl

/-- THE ADJACENCY AT AN ENTRY, at the ideal instance, when no edge word is negative: the sum of the weights of the edges whose
    destination word is the row and whose source word is the column. -/
theorem adjOf_entry (src dst : IVec S650000 32) (w : S650000.Idx → EReal)
    (hs : ∀ e, 0 ≤ (src e).toInt) (hd : ∀ e, 0 ≤ (dst e).toInt) (i : S10240x10240.Idx) :
    (adjOf (F := Ideal) src dst w : S10240x10240.Idx → EReal) i
      = ∑ e ∈ Finset.univ.filter (fun e : S650000.Idx => (dst e).toInt = ((i 0).val : ℤ) ∧ (src e).toInt = ((i 1).val : ℤ)), w e := by
  unfold adjOf
  rw [truncf_apply, wrapped_eq dst hd, wrapped_eq src hs]
  unfold Host.scatterAdd
  rw [Ideal.hostScatterAdd_def]
  unfold Ideal.hostScatterAdd
  rw [zeros_apply, zero_add, pair_eq]
  refine Finset.sum_congr (Finset.filter_congr fun e _ => ?_) (fun _ _ => rfl)
  rw [pairScatter_resultIdx, pairs_apply_left, pairs_apply_right, column_apply, column_apply]

end Cert.KernelIdeal.KAdj

end
-- ==== Proof.KHost.lean ====
/-
  The kernel program's host stretches before the first kernel region, read against the reference program's stages.
-/
import proofs.«402538_j62483184222721_2_alg».proof.Proof.Gen.KernelIdeal.Frame
import proofs.«402538_j62483184222721_2_alg».proof.Proof.KAdj
import proofs.«402538_j62483184222721_2_alg».proof.Proof.RefRead
import Idealize.ShloMosaic.Lib.StableHlo.Run

set_option maxRecDepth 16384

noncomputable section

open scoped BigOperators

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]

/-! The kernel program's first three host stretches compute, from the edge array alone, the same edge words, the same
    `deg^(-1/2)` table and the same edge weights as the reference program — operation for operation — and then scatter the
    weights into the dense adjacency. Each stretch is read from ANY entry contents; the equalities with the reference's stages
    are equalities of the same composed operations. -/

/-- Stretch 0: the source words. -/
theorem s0_src (V : Valuation τ sig (Elt F)) :
    StableHlo.after hostOps0 V (Proc.devRef .tc main_v3) = Cert.ReferenceIdeal.Read.val_main_v3 (F := F) (V (Proc.devRef .tc main_arg5)) := by
  after_results
  rfl
/-- Stretch 0: the destination words. -/
theorem s0_dst (V : Valuation τ sig (Elt F)) :
    StableHlo.after hostOps0 V (Proc.devRef .tc main_v6) = Cert.ReferenceIdeal.Read.val_main_v6 (F := F) (V (Proc.devRef .tc main_arg5)) := by
  after_results
  rfl
/-- Stretch 0: where the degree is positive. -/
theorem s0_pos (V : Valuation τ sig (Elt F)) :
    StableHlo.after hostOps0 V (Proc.devRef .tc main_v12) = Cert.ReferenceIdeal.Read.val_main_v13 (F := F) (V (Proc.devRef .tc main_arg5)) := by
  after_results
  rfl
/-- Stretch 0: the reciprocal square root of the degree. -/
theorem s0_rsq (V : Valuation τ sig (Elt F)) :
    StableHlo.after hostOps0 V (Proc.devRef .tc main_v13) = Cert.ReferenceIdeal.Read.val_main_v14 (F := F) (V (Proc.devRef .tc main_arg5)) := by
  after_results
  rfl
/-- Stretch 0: the zero the table falls back to. -/
theorem s0_cst (V : Valuation τ sig (Elt F)) :
    StableHlo.after hostOps0 V (Proc.devRef .tc main_cst_2) = Cert.ReferenceIdeal.Read.val_main_cst_2 (F := F) := by
  after_results
  rfl

/-- Stretch 1: the `deg^(-1/2)` table, zero where the degree is not positive. -/
theorem s1_table (V : Valuation τ sig (Elt F)) (x5 : IVec S2x640000 32)
    (h12 : V (Proc.devRef .tc main_v12) = Cert.ReferenceIdeal.Read.val_main_v13 (F := F) x5)
    (h13 : V (Proc.devRef .tc main_v13) = Cert.ReferenceIdeal.Read.val_main_v14 (F := F) x5)
    (hc : V (Proc.devRef .tc main_cst_2) = Cert.ReferenceIdeal.Read.val_main_cst_2 (F := F)) :
    StableHlo.after hostOps0_1 V (Proc.devRef .tc main_v14) = Cert.ReferenceIdeal.Read.val_main_v15 (F := F) x5 := by
  after_results
  simp only [TRef.ofBuf, TRef.toBuf, cast_eq]
  rw [h12, h13, hc]
  rfl

/-- Stretch 2, up to the index pairs: the wrapped destination column. -/
theorem s2_dstcol (V : Valuation τ sig (Elt F)) (x5 : IVec S2x640000 32)
    (h6 : V (Proc.devRef .tc main_v6) = Cert.ReferenceIdeal.Read.val_main_v6 (F := F) x5) :
    StableHlo.after ((hostOps0_2 (F := F)).take 37) V (Proc.devRef .tc main_v41)
      = broadcastInDim S650000x1 ![0] bcast_S650000_S650000x1_0
        (select (cmpi .slt (Cert.ReferenceIdeal.Read.val_main_v6 (F := F) x5) (broadcastInDim S650000 ![] bcast_S_S650000 (constantI S_ 32 0#32)))
          (addi (Cert.ReferenceIdeal.Read.val_main_v6 (F := F) x5) (broadcastInDim S650000 ![] bcast_S_S650000 (constantI S_ 32 10240#32))) (Cert.ReferenceIdeal.Read.val_main_v6 (F := F) x5)) := by
  simp only [hostOps0_2, List.take]
  after_results_simp
  rw [h6]
/-- Stretch 2, up to the index pairs: the wrapped source column. -/
theorem s2_srccol (V : Valuation τ sig (Elt F)) (x5 : IVec S2x640000 32)
    (h3 : V (Proc.devRef .tc main_v3) = Cert.ReferenceIdeal.Read.val_main_v3 (F := F) x5) :
    StableHlo.after ((hostOps0_2 (F := F)).take 37) V (Proc.devRef .tc main_v42)
      = broadcastInDim S650000x1 ![0] bcast_S650000_S650000x1_0
        (select (cmpi .slt (Cert.ReferenceIdeal.Read.val_main_v3 (F := F) x5) (broadcastInDim S650000 ![] bcast_S_S650000 (constantI S_ 32 0#32)))
          (addi (Cert.ReferenceIdeal.Read.val_main_v3 (F := F) x5) (broadcastInDim S650000 ![] bcast_S_S650000 (constantI S_ 32 10240#32))) (Cert.ReferenceIdeal.Read.val_main_v3 (F := F) x5)) := by
  simp only [hostOps0_2, List.take]
  after_results_simp
  rw [h3]
/-- Stretch 2, up to the index pairs: the edge weights. -/
theorem s2_weights (V : Valuation τ sig (Elt F)) (x5 : IVec S2x640000 32)
    (h3 : V (Proc.devRef .tc main_v3) = Cert.ReferenceIdeal.Read.val_main_v3 (F := F) x5)
    (h6 : V (Proc.devRef .tc main_v6) = Cert.ReferenceIdeal.Read.val_main_v6 (F := F) x5)
    (h14 : V (Proc.devRef .tc main_v14) = Cert.ReferenceIdeal.Read.val_main_v15 (F := F) x5) :
    StableHlo.after ((hostOps0_2 (F := F)).take 37) V (Proc.devRef .tc main_v29) = Cert.ReferenceIdeal.Read.val_main_v30 (F := F) x5 := by
  simp only [hostOps0_2, List.take]
  after_results_simp
  rw [h3, h6, h14]
  rfl
/-- Stretch 2, up to the index pairs: the zero matrix. -/
theorem s2_zeros (V : Valuation τ sig (Elt F)) :
    StableHlo.after ((hostOps0_2 (F := F)).take 37) V (Proc.devRef .tc main_v30)
      = broadcastInDim S10240x10240 ![] bcast_S_S10240x10240 (constant (F := F) S_ .f32 0x00000000#32) := by
  simp only [hostOps0_2, List.take]
  after_results_simp

/-- Stretch 2's last operations: pair the columns, scatter the weights into the zero matrix, change the format. -/
theorem s2_tail (W : Valuation τ sig (Elt F)) :
    StableHlo.after ((hostOps0_2 (F := F)).drop 37) W (Proc.devRef .tc main_v45)
      = truncf .bf16
          (Host.scatterAdd scatter_S10240x10240_S650000x2_S650000_n_01_01_1 (W (Proc.devRef .tc main_v30))
            (concatenate S650000x2 1 [⟨S650000x1, W (Proc.devRef .tc main_v41)⟩, ⟨S650000x1, W (Proc.devRef .tc main_v42)⟩]
              concatenates_S650000x1_S650000x1_S650000x2_d1)
            (W (Proc.devRef .tc main_v29)))
          bitsLt_bf16_f32 := by
  simp only [hostOps0_2, List.drop]
  after_results

/-- Stretch 2: the dense adjacency, from the edge words and the table. -/
theorem s2_adj (V : Valuation τ sig (Elt F)) (x5 : IVec S2x640000 32)
    (h3 : V (Proc.devRef .tc main_v3) = Cert.ReferenceIdeal.Read.val_main_v3 (F := F) x5)
    (h6 : V (Proc.devRef .tc main_v6) = Cert.ReferenceIdeal.Read.val_main_v6 (F := F) x5)
    (h14 : V (Proc.devRef .tc main_v14) = Cert.ReferenceIdeal.Read.val_main_v15 (F := F) x5) :
    StableHlo.after hostOps0_2 V (Proc.devRef .tc main_v45)
      = Cert.KernelIdeal.KAdj.adjOf (F := F) (Cert.ReferenceIdeal.Read.val_main_v3 (F := F) x5) (Cert.ReferenceIdeal.Read.val_main_v6 (F := F) x5)
          (Cert.ReferenceIdeal.Read.val_main_v30 (F := F) x5) := by
  rw [← List.take_append_drop 37 (hostOps0_2 (F := F)), StableHlo.after_append, s2_tail,
    s2_dstcol V x5 h6, s2_srccol V x5 h3, s2_weights V x5 h3 h6 h14, s2_zeros V]
  rfl

end Cert.KernelIdeal.KHost

end
-- ==== Proof.KValue.lean ====
/-
  The kernel program's result buffer holds the network of the specification: the three regions' arrays, the host
  operations between them and the dense form's algebra, put together.
-/
import proofs.«402538_j62483184222721_2_alg».proof.Proof.KWalk
import proofs.«402538_j62483184222721_2_alg».proof.Proof.KReg0
import proofs.«402538_j62483184222721_2_alg».proof.Proof.KReg1
import proofs.«402538_j62483184222721_2_alg».proof.Proof.KReg2
import proofs.«402538_j62483184222721_2_alg».proof.Proof.KEntries
import proofs.«402538_j62483184222721_2_alg».proof.Proof.KAdj
import proofs.«402538_j62483184222721_2_alg».proof.Proof.KHost
import proofs.«402538_j62483184222721_2_alg».proof.Proof.DenseNetwork

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open Idealize.ShloMosaic.StableHlo

/-- The edge words and weights, as both programs compute them from the edge array. -/
abbrev srcW (x5 : IVec S2x640000 32) : S650000.Idx → BitVec 32 := Cert.ReferenceIdeal.Read.val_main_v3 (F := Ideal) x5
abbrev dstW (x5 : IVec S2x640000 32) : S650000.Idx → BitVec 32 := Cert.ReferenceIdeal.Read.val_main_v6 (F := Ideal) x5
abbrev wgtW (x5 : IVec S2x640000 32) : S650000.Idx → EReal := Cert.ReferenceIdeal.Read.val_main_v30 (F := Ideal) x5

variable (m : (ℓ : Loc nD τ sig) → Buf (Elt Ideal) ℓ) (ρ : Dev nD → PrngReg)

/-- The dense adjacency region 0 … region 2 find is `adjOf` of the edge words and weights. -/
theorem adj_host (c : Dev nD) :
    W4 m ρ c (Proc.devRef .tc main_v45)
      = KAdj.adjOf (F := Ideal) (srcW (m ((c : Thread nD τ).loc main_arg5))) (dstW (m ((c : Thread nD τ).loc main_arg5)))
          (wgtW (m ((c : Thread nD τ).loc main_arg5))) := by
  have h3 : W2 m ρ c (Proc.devRef .tc main_v3) = srcW (m ((c : Thread nD τ).loc main_arg5)) :=
    (StableHlo.after_of_forall_not_mem (b := _) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (KHost.s0_src (W0 m ρ c))
  have h6 : W2 m ρ c (Proc.devRef .tc main_v6) = dstW (m ((c : Thread nD τ).loc main_arg5)) :=
    (StableHlo.after_of_forall_not_mem (b := _) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (KHost.s0_dst (W0 m ρ c))
  have h14 : W2 m ρ c (Proc.devRef .tc main_v14) = Cert.ReferenceIdeal.Read.val_main_v15 (F := Ideal) (m ((c : Thread nD τ).loc main_arg5)) :=
    KHost.s1_table (W1 m ρ c) _ (KHost.s0_pos (W0 m ρ c)) (KHost.s0_rsq (W0 m ρ c)) (KHost.s0_cst (W0 m ρ c))
  exact (StableHlo.after_of_forall_not_mem (b := _) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (KHost.s2_adj (W2 m ρ c) _ h3 h6 h14)

/-- THE KERNEL PROGRAM'S RESULT IS `G`: the result buffer at the last boundary holds the network of the specification, when every
    edge word is a node number and every weight and float input entry is a real number. -/
theorem kernel_value (c : Dev nD)
    (hs : ∀ e, 0 ≤ (srcW (m ((c : Thread nD τ).loc main_arg5)) e).toInt ∧ (srcW (m ((c : Thread nD τ).loc main_arg5)) e).toInt < 10000)
    (hd : ∀ e, 0 ≤ (dstW (m ((c : Thread nD τ).loc main_arg5)) e).toInt ∧ (dstW (m ((c : Thread nD τ).loc main_arg5)) e).toInt < 10000)
    (hw : ∀ e, IsReal (wgtW (m ((c : Thread nD τ).loc main_arg5)) e))
    (hx0 : ∀ i, IsReal ((m ((c : Thread nD τ).loc main_arg0) : S10000x128.Idx → EReal) i))
    (hx1 : ∀ i, IsReal ((m ((c : Thread nD τ).loc main_arg1) : S128x128.Idx → EReal) i))
    (hx2 : ∀ i, IsReal ((m ((c : Thread nD τ).loc main_arg2) : S128.Idx → EReal) i))
    (hx3 : ∀ i, IsReal ((m ((c : Thread nD τ).loc main_arg3) : S128x64.Idx → EReal) i)) :
    (W10 m ρ c (Proc.devRef .tc main_v52) : S10000x64.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4))
          (srcW (m ((c : Thread nD τ).loc main_arg5))) (dstW (m ((c : Thread nD τ).loc main_arg5))) (wgtW (m ((c : Thread nD τ).loc main_arg5))) := by
  funext i
  obtain ⟨n, g, rfl⟩ : ∃ (n : Fin 10000) (g : Fin 64), i = ix2 n g := ⟨i 0, i 1, eq_ix2 i⟩
  rw [KWalk.result_at_exit, KEntries.head_rows_apply, KWalk.out_at_exit, KReg2.arr2 (V8 m ρ) c]
  show lin (N := 10240) (K := 10240) (M := 64) (W8 m ρ c (Proc.devRef .tc main_v45)) (W8 m ρ c (Proc.devRef .tc main_v49)) (ix2 (padRow n) g)
      + (W8 m ρ c (Proc.devRef .tc main_v50) : S1x64.Idx → EReal) (ix2 (n0 := 1) (n1 := 64) 0 g) = _
  rw [KWalk.adj_at_region2, KWalk.feat_at_region2, KWalk.bias_at_region2, KReg1.arr1 (V6 m ρ) c]
  show lin (N := 10240) (K := 10240) (M := 64) (W4 m ρ c (Proc.devRef .tc main_v45))
        (lin (N := 10240) (K := 128) (M := 64)
          (fun j => max (lin (N := 10240) (K := 10240) (M := 128) (W6 m ρ c (Proc.devRef .tc main_v45)) (W6 m ρ c (Proc.devRef .tc main_v47)) j
                          + (W6 m ρ c (Proc.devRef .tc main_v48) : S1x128.Idx → EReal) (ix2 (n0 := 1) (n1 := 128) 0 (j 1))) 0)
          (W6 m ρ c (Proc.devRef .tc main_arg3)))
        (ix2 (padRow n) g)
      + _ = _
  rw [KWalk.adj_at_region1, KWalk.feat_at_region1, KWalk.bias_at_region1, KWalk.w2_at_region1, KReg0.arr0 (V4 m ρ) c]
  show lin (N := 10240) (K := 10240) (M := 64) (W4 m ρ c (Proc.devRef .tc main_v45))
        (lin (N := 10240) (K := 128) (M := 64)
          (fun j => max (lin (N := 10240) (K := 10240) (M := 128) (W4 m ρ c (Proc.devRef .tc main_v45))
                            (lin (N := 10240) (K := 128) (M := 128) (W4 m ρ c (Proc.devRef .tc main_v46)) (W4 m ρ c (Proc.devRef .tc main_arg1))) j
                          + _) 0) _)
        (ix2 (padRow n) g)
      + _ = _
  rw [KWalk.w1_at_region0]
  exact dense_network _ _ _ _ _ _ _ _ (W4 m ρ c (Proc.devRef .tc main_v46)) (W4 m ρ c (Proc.devRef .tc main_v45)) _ _
    (fun i => by rw [KWalk.xpad_at_region0, KEntries.pad_rows_apply, KEntries.pad_value])
    (fun i => by rw [adj_host]; exact KAdj.adjOf_entry _ _ _ (fun e => (hs e).1) (fun e => (hd e).1) i)
    (fun k => KEntries.bias1_row_apply _ k) (fun g => KEntries.bias2_row_apply _ g)
    hs hd hw hx0 hx1 hx2 hx3 n g

end Cert.KernelIdeal.KValue

end
-- ==== Proof.RefValue.lean ====
/-
  The reference program's result as the network `G` of the specification.
-/
import proofs.«402538_j62483184222721_2_alg».proof.Proof.RefRead
import proofs.«402538_j62483184222721_2_alg».proof.Proof.Spec
import proofs.«402538_j62483184222721_2_alg».proof.Proof.LibScatterGather
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Gcn Cert.LibScatterGather

/-! ## One aggregation, in general

A row segment sum into a zero matrix, of rows gathered at the source words and scaled by the edge weights, is `agg`:
update `(e, f')` lands on `(n, f)` exactly when edge `e`'s destination word is `n` and `f' = f`, so the updates that
land on `(n, f)` are, one for one, the edges that end at `n` (edge `e` gives update `(e, f)`); and the gather's clamp of a
source word into the node range is `nodeOf`. -/

/-- The gather's clamp of a word into the node range is `nodeOf`. -/
theorem clamp_eq_nodeOf {a b : BitVec 32} (hab : a = b) (hlt : min a.toInt.toNat (10000 - 1) < 10000) :
    (⟨min a.toInt.toNat (10000 - 1), hlt⟩ : Fin 10000) = nodeOf b := by
  subst hab; rfl

/-- A zero-initialised row segment sum of (gathered rows × weights broadcast along the row) is `agg`. -/
theorem segsum_eq_agg {M : ℕ}
    (wfS : ScatterDims.WF ⟨2, ![10000, M]⟩ ⟨2, ![650000, 1]⟩ ⟨2, ![650000, M]⟩ [1] [0] [0] 1)
    (wfG : GatherDims.WF ⟨2, ![10000, M]⟩ ⟨2, ![650000, 1]⟩ ⟨2, ![650000, M]⟩ [1] [0] [] [0] [] 1 ![1, M])
    (h : (⟨2, ![10000, M]⟩ : Shape).Idx → EReal) (src dst : Edge → BitVec 32) (w : Edge → EReal)
    (z : (⟨2, ![10000, M]⟩ : Shape).Idx → EReal) (hz : ∀ i, z i = 0)
    (sidx didx : IVec ⟨2, ![650000, 1]⟩ 32)
    (hsidx : ∀ e : Fin 650000, sidx (ix2 (n0 := 650000) (n1 := 1) e 0) = src (ix1 (n := 650000) e))
    (hdidx : ∀ e : Fin 650000, didx (ix2 (n0 := 650000) (n1 := 1) e 0) = dst (ix1 (n := 650000) e))
    (wb : (⟨2, ![650000, M]⟩ : Shape).Idx → EReal)
    (hwb : ∀ (e : Fin 650000) (f : Fin M), wb (ix2 (n0 := 650000) (n1 := M) e f) = w (ix1 (n := 650000) e))
    (hd : ∀ e, 0 ≤ (dst e).toInt ∧ (dst e).toInt < 10000) :
    Host.scatterAdd (F := Ideal) (φ := .f32) (rowScatter 10000 M 650000 wfS) z didx
        (mulf (F := Ideal) (φ := .f32) (Host.gather (rowGather 10000 M 650000 wfG) h sidx) wb)
      = agg src dst w h := by
  funext i
  unfold Host.scatterAdd
  rw [Ideal.hostScatterAdd_def]
  unfold Ideal.hostScatterAdd agg
  rw [hz i, zero_add]
  -- an update that lands on `i`: its edge's destination word is `i`'s row, its column is `i`'s column
  have hland : ∀ j : (⟨2, ![650000, M]⟩ : Shape).Idx, (rowScatter 10000 M 650000 wfS).resultIdx? j didx = some i ↔
      (dst (ix1 (n := 650000) (j 0))).toInt = ((i 0).val : ℤ) ∧ (j 1).val = (i 1).val := by
    intro j
    rw [rowScatter_resultIdx, hdidx (j 0)]
  -- a destination word in range names the node it reads as
  have hnode : ∀ e : Edge, (nodeOf (dst e)).val = (i 0).val ↔ (dst e).toInt = ((i 0).val : ℤ) := by
    intro e
    have := nodeOf_val_of_range (hd e).1 (hd e).2
    omega
  refine Finset.sum_nbij' (fun j => ix1 (n := 650000) (j 0)) (fun e => ix2 (n0 := 650000) (n1 := M) (e 0) (i 1)) ?_ ?_ ?_ ?_ ?_
  · intro j hj
    rw [Finset.mem_filter] at hj ⊢
    exact ⟨Finset.mem_univ _, (hnode _).mpr ((hland j).mp hj.2).1⟩
  · intro e he
    rw [Finset.mem_filter] at he ⊢
    refine ⟨Finset.mem_univ _, (hland _).mpr ⟨?_, rfl⟩⟩
    exact (congrArg (fun x => (dst x).toInt) (eq_ix1 e).symm).trans ((hnode e).mp he.2)
  · intro j hj
    rw [Finset.mem_filter] at hj
    have h1 : j 1 = i 1 := Fin.ext ((hland j).mp hj.2).2
    show ix2 (n0 := 650000) (n1 := M) (j 0) (i 1) = j
    rw [← h1]
    exact (eq_ix2 j).symm
  · intro e he
    exact (eq_ix1 e).symm
  · intro j hj
    rw [Finset.mem_filter] at hj
    have h1 : j 1 = i 1 := Fin.ext ((hland j).mp hj.2).2
    have hg : Host.gather (rowGather 10000 M 650000 wfG) h sidx j
        = h (ix2 (n0 := 10000) (n1 := M) (nodeOf (src (ix1 (n := 650000) (j 0)))) (i 1)) :=
      (rowGather_apply (by norm_num : 0 < 10000) wfG h sidx j).trans
        (congrArg h (congrArg₂ (fun n f => ix2 (n0 := 10000) (n1 := M) n f) (clamp_eq_nodeOf (hsidx (j 0)) _) h1))
    have hw : wb j = w (ix1 (n := 650000) (j 0)) := (congrArg wb (eq_ix2 j)).trans (hwb (j 0) (j 1))
    rw [mulf_apply, hg, hw]

/-! ## The printed dimension numbers are the general ones -/

theorem scatter128_eq : scatter_S10000x128_S650000x1_S650000x128_1_0_0_1
    = rowScatter 10000 128 650000 Gen.scatter_S10000x128_S650000x1_S650000x128_1_0_0_1_wf := rfl
theorem gather128_eq : gather_S10000x128_S650000x1_S650000x128_1_0_n_n_0_1_1128
    = rowGather 10000 128 650000 Gen.gather_S10000x128_S650000x1_S650000x128_1_0_n_n_0_1_1128_wf := rfl
theorem scatter64_eq : scatter_S10000x64_S650000x1_S650000x64_1_0_0_1
    = rowScatter 10000 64 650000 Gen.scatter_S10000x64_S650000x1_S650000x64_1_0_0_1_wf := rfl
theorem gather64_eq : gather_S10000x64_S650000x1_S650000x64_1_0_n_n_0_1_164
    = rowGather 10000 64 650000 Gen.gather_S10000x64_S650000x1_S650000x64_1_0_n_n_0_1_164_wf := rfl

/-! ## The source words

The program wraps a negative source word by the node count before it gathers; a word that is a node number is not negative,
so the wrap leaves it as it is. -/

/-- The wrap of a negative word leaves a nonnegative word unchanged. -/
theorem wrap_of_nonneg (a : BitVec 32) (h0 : 0 ≤ a.toInt) :
    Scalar.select (IntOp.cmpi .slt a 0#32) (IntOp.addi a 10000#32) a = a := by
  have hlt : a.slt 0#32 = false := by
    rw [BitVec.slt_eq_decide, decide_eq_false_iff_not]
    show ¬ a.toInt < 0
    omega
  show Scalar.select (BitVec.ofBool (a.slt 0#32)) (IntOp.addi a 10000#32) a = a
  rw [hlt, BitVec.ofBool_false]
  exact select_zero _ _

/-- Layer 1's gather indices are the source words. -/
theorem v35_eq (x5 : IVec S2x640000 32) (hs : ∀ e, 0 ≤ (val_main_v3 (F := Ideal) x5 e).toInt ∧ (val_main_v3 (F := Ideal) x5 e).toInt < 10000) :
    val_main_v35 (F := Ideal) x5 = val_main_v3 (F := Ideal) x5 := by
  funext e
  rw [val_main_v35_apply, val_main_v32_apply, val_main_v34_apply, val_main_v31_apply, val_main_c_6_apply, val_main_v33_apply,
    val_main_c_7_apply]
  exact wrap_of_nonneg _ (hs e).1

/-- Layer 2 computes its gather indices, its scatter indices and its edge weights anew, by the same operations. -/
theorem v76_eq (x5 : IVec S2x640000 32) : val_main_v76 (F := Ideal) x5 = val_main_v35 (F := Ideal) x5 := rfl
theorem v83_eq (x5 : IVec S2x640000 32) : val_main_v83 (F := Ideal) x5 = val_main_v42 (F := Ideal) x5 := rfl
theorem v71_eq (x5 : IVec S2x640000 32) : val_main_v71 (F := Ideal) x5 = val_main_v30 (F := Ideal) x5 := rfl

/-! ## The dense layers -/

/-- The first product is `lin`. -/
theorem v7_eq (x0 : S10000x128.Idx → EReal) (x1 : S128x128.Idx → EReal) : val_main_v7 (F := Ideal) x0 x1 = lin x0 x1 := by
  funext i
  rw [val_main_v7_apply]
  refine Finset.sum_congr rfl fun k _ => ?_
  have hl : lidx_main_v7 i k = ix2 (n0 := 10000) (n1 := 128) (i 0) k := funext fun a => match a with
    | ⟨0, _⟩ => rfl
    | ⟨1, _⟩ => rfl
  have hr : ridx_main_v7 i k = ix2 (n0 := 128) (n1 := 128) k (i 1) := funext fun a => match a with
    | ⟨0, _⟩ => rfl
    | ⟨1, _⟩ => rfl
  rw [hl, hr]

/-! ## Layer 1 -/

/-- The zero matrix the first segment sum starts from. -/
theorem v41_zero (i : S10000x128.Idx) : val_main_v41 (F := Ideal) i = 0 := by
  rw [val_main_v41_apply, val_main_cst_8_apply, Ideal.ofBits_def, Ideal.ofBits_zero_f32]

/-- The first segment sum is the aggregation of `x0 · x1`. -/
theorem v43_eq (x0 : S10000x128.Idx → EReal) (x1 : S128x128.Idx → EReal) (x5 : IVec S2x640000 32)
    (hs : ∀ e, 0 ≤ (val_main_v3 (F := Ideal) x5 e).toInt ∧ (val_main_v3 (F := Ideal) x5 e).toInt < 10000)
    (hd : ∀ e, 0 ≤ (val_main_v6 (F := Ideal) x5 e).toInt ∧ (val_main_v6 (F := Ideal) x5 e).toInt < 10000) :
    val_main_v43 (F := Ideal) x0 x1 x5
      = agg (val_main_v3 (F := Ideal) x5) (val_main_v6 (F := Ideal) x5) (val_main_v30 (F := Ideal) x5) (lin x0 x1) := by
  rw [← v7_eq]
  unfold val_main_v43 val_main_v40 val_main_v37
  rw [scatter128_eq, gather128_eq]
  refine segsum_eq_agg _ _ _ _ _ _ _ v41_zero _ _ ?_ ?_ _ ?_ hd
  · intro e
    rw [val_main_v36_apply, v35_eq x5 hs]
    exact congrArg _ (funext fun a => match a with | ⟨0, _⟩ => rfl)
  · intro e
    rw [val_main_v42_apply]
    exact congrArg _ (funext fun a => match a with | ⟨0, _⟩ => rfl)
  · intro e f
    rw [val_main_v39_apply, val_main_v38_apply]
    exact congrArg _ (funext fun a => match a with | ⟨0, _⟩ => rfl)

/-- Layer 1 after the bias and the maximum with zero is `hidden`. -/
theorem v47_eq (x0 : S10000x128.Idx → EReal) (x1 : S128x128.Idx → EReal) (x2 : S128.Idx → EReal) (x5 : IVec S2x640000 32)
    (hs : ∀ e, 0 ≤ (val_main_v3 (F := Ideal) x5 e).toInt ∧ (val_main_v3 (F := Ideal) x5 e).toInt < 10000)
    (hd : ∀ e, 0 ≤ (val_main_v6 (F := Ideal) x5 e).toInt ∧ (val_main_v6 (F := Ideal) x5 e).toInt < 10000) :
    val_main_v47 (F := Ideal) x0 x1 x2 x5
      = hidden x0 x1 x2 (val_main_v3 (F := Ideal) x5) (val_main_v6 (F := Ideal) x5) (val_main_v30 (F := Ideal) x5) := by
  funext j
  rw [val_main_v47_apply, val_main_v46_apply, v43_eq x0 x1 x5 hs hd, val_main_call1_v0_apply, val_main_call1_cst_apply,
    val_main_v45_apply, val_main_v44_apply, Ideal.maximumf_def, Ideal.addf_def, Ideal.ofBits_def, Ideal.ofBits_zero_f32]
  have hb : idx_main_v44 (idx_main_v45 j) = ix1 (n := 128) (j 1) := funext fun a => match a with
    | ⟨0, _⟩ => rfl
  rw [hb]
  rfl

/-- The second product is `lin` of the hidden layer. -/
theorem v48_eq (x0 : S10000x128.Idx → EReal) (x1 : S128x128.Idx → EReal) (x2 : S128.Idx → EReal) (x3 : S128x64.Idx → EReal)
    (x5 : IVec S2x640000 32)
    (hs : ∀ e, 0 ≤ (val_main_v3 (F := Ideal) x5 e).toInt ∧ (val_main_v3 (F := Ideal) x5 e).toInt < 10000)
    (hd : ∀ e, 0 ≤ (val_main_v6 (F := Ideal) x5 e).toInt ∧ (val_main_v6 (F := Ideal) x5 e).toInt < 10000) :
    val_main_v48 (F := Ideal) x0 x1 x2 x3 x5
      = lin (hidden x0 x1 x2 (val_main_v3 (F := Ideal) x5) (val_main_v6 (F := Ideal) x5) (val_main_v30 (F := Ideal) x5)) x3 := by
  funext i
  rw [val_main_v48_apply, v47_eq x0 x1 x2 x5 hs hd]
  refine Finset.sum_congr rfl fun k _ => ?_
  have hl : lidx_main_v48 i k = ix2 (n0 := 10000) (n1 := 128) (i 0) k := funext fun a => match a with
    | ⟨0, _⟩ => rfl
    | ⟨1, _⟩ => rfl
  have hr : ridx_main_v48 i k = ix2 (n0 := 128) (n1 := 64) k (i 1) := funext fun a => match a with
    | ⟨0, _⟩ => rfl
    | ⟨1, _⟩ => rfl
  rw [hl, hr]

/-! ## Layer 2 -/

/-- The zero matrix the second segment sum starts from. -/
theorem v82_zero (i : S10000x64.Idx) : val_main_v82 (F := Ideal) i = 0 := by
  rw [val_main_v82_apply, val_main_cst_19_apply, Ideal.ofBits_def, Ideal.ofBits_zero_f32]

/-- The second segment sum is the aggregation of `hidden · x3`. -/
theorem v84_eq (x0 : S10000x128.Idx → EReal) (x1 : S128x128.Idx → EReal) (x2 : S128.Idx → EReal) (x3 : S128x64.Idx → EReal)
    (x5 : IVec S2x640000 32)
    (hs : ∀ e, 0 ≤ (val_main_v3 (F := Ideal) x5 e).toInt ∧ (val_main_v3 (F := Ideal) x5 e).toInt < 10000)
    (hd : ∀ e, 0 ≤ (val_main_v6 (F := Ideal) x5 e).toInt ∧ (val_main_v6 (F := Ideal) x5 e).toInt < 10000) :
    val_main_v84 (F := Ideal) x0 x1 x2 x3 x5
      = agg (val_main_v3 (F := Ideal) x5) (val_main_v6 (F := Ideal) x5) (val_main_v30 (F := Ideal) x5)
          (lin (hidden x0 x1 x2 (val_main_v3 (F := Ideal) x5) (val_main_v6 (F := Ideal) x5) (val_main_v30 (F := Ideal) x5)) x3) := by
  rw [← v48_eq x0 x1 x2 x3 x5 hs hd]
  unfold val_main_v84 val_main_v81 val_main_v78
  rw [scatter64_eq, gather64_eq]
  refine segsum_eq_agg _ _ _ _ _ _ _ v82_zero _ _ ?_ ?_ _ ?_ hd
  · intro e
    rw [val_main_v77_apply, v76_eq, v35_eq x5 hs]
    exact congrArg _ (funext fun a => match a with | ⟨0, _⟩ => rfl)
  · intro e
    rw [val_main_v83_apply]
    exact congrArg _ (funext fun a => match a with | ⟨0, _⟩ => rfl)
  · intro e f
    rw [val_main_v80_apply, val_main_v79_apply, v71_eq]
    exact congrArg _ (funext fun a => match a with | ⟨0, _⟩ => rfl)

/-- THE REFERENCE'S RESULT IS `G`. With every edge word a node number (`hs`, `hd`), the reference's last stage is the
    network `G` of the argument arrays, the edge words and the edge weights: a gather at a word in range reads that node's
    row, and a segment sum keeps exactly the updates whose destination word is the node. -/
theorem ref_value (x0 : S10000x128.Idx → EReal) (x1 : S128x128.Idx → EReal) (x2 : S128.Idx → EReal) (x3 : S128x64.Idx → EReal)
    (x4 : S64.Idx → EReal) (x5 : IVec S2x640000 32)
    (hs : ∀ e, 0 ≤ (val_main_v3 (F := Ideal) x5 e).toInt ∧ (val_main_v3 (F := Ideal) x5 e).toInt < 10000)
    (hd : ∀ e, 0 ≤ (val_main_v6 (F := Ideal) x5 e).toInt ∧ (val_main_v6 (F := Ideal) x5 e).toInt < 10000) :
    val_main_v87 (F := Ideal) x0 x1 x2 x3 x4 x5
      = G x0 x1 x2 x3 x4 (val_main_v3 (F := Ideal) x5) (val_main_v6 (F := Ideal) x5) (val_main_v30 (F := Ideal) x5) := by
  funext i
  rw [val_main_v87_apply, v84_eq x0 x1 x2 x3 x5 hs hd, val_main_v86_apply, val_main_v85_apply, Ideal.addf_def]
  have hb : idx_main_v85 (idx_main_v86 i) = ix1 (n := 64) (i 1) := funext fun a => match a with
    | ⟨0, _⟩ => rfl
  rw [hb]
  rfl

end Cert.ReferenceIdeal.RefValue

end
-- ==== Proof.RefEdges.lean ====
/-
  The edge list the programs build from the edge array: every word a node number, every weight a real number.
-/
import proofs.«402538_j62483184222721_2_alg».proof.Proof.RefRead
import proofs.«402538_j62483184222721_2_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.ReferenceIdeal.RefEdges

open Idealize.ShloMosaic Idealize.ShloMosaic.TcCoe Idealize.ShloMosaic.ValueIdx Idealize.SL.Sem
open Cert.ReferenceIdeal Cert.ReferenceIdeal.Gen Cert.ReferenceIdeal.Read Cert.Gcn

/-- The pattern 0x3F800000 is the number one. -/
theorem ofBits_one_f32 : Ideal.ofBits .f32 0x3F800000#32 = 1 := by
  simp [Ideal.ofBits, Ideal.ieee, -EReal.coe_mul]; norm_num

/-- A sum of ones is a nonnegative real number. -/
theorem sum_ones_nonneg {ι : Type*} (s : Finset ι) (f : ι → EReal) (hf : ∀ j ∈ s, f j = 1) :
    ∃ r : ℝ, 0 ≤ r ∧ ∑ j ∈ s, f j = (r : EReal) := by
  classical
  induction s using Finset.induction_on with
  | empty => exact ⟨0, le_refl _, by simp⟩
  | insert a s ha ih =>
    obtain ⟨r, hr, e⟩ := ih fun j hj => hf j (Finset.mem_insert_of_mem hj)
    refine ⟨1 + r, by linarith, ?_⟩
    rw [Finset.sum_insert ha, hf a (Finset.mem_insert_self a s), e]
    simp [EReal.coe_add]

/-- The degree array: each entry counts updates, a nonnegative real number. -/
theorem deg_nonneg (x5 : IVec S2x640000 32) (i : S10000.Idx) :
    ∃ r : ℝ, 0 ≤ r ∧ val_main_v11 (F := Ideal) x5 i = (r : EReal) := by
  have h0 : val_main_v9 (F := Ideal) i = 0 := by
    rw [val_main_v9_apply, val_main_cst_0_apply, Ideal.ofBits_def, Ideal.ofBits_zero_f32]
  have h1 : ∀ j, val_main_v8 (F := Ideal) j = 1 := fun j => by
    rw [val_main_v8_apply, val_main_cst_apply, Ideal.ofBits_def, ofBits_one_f32]
  obtain ⟨r, hr, e⟩ := sum_ones_nonneg
    (Finset.univ.filter fun j => scatter_S10000_S650000x1_S650000_n_0_0_1.resultIdx? j (val_main_v10 (F := Ideal) x5) = some i)
    (val_main_v8 (F := Ideal)) fun j _ => h1 j
  refine ⟨r, hr, ?_⟩
  show val_main_v9 (F := Ideal) i + ∑ j ∈ _, val_main_v8 (F := Ideal) j = _
  rw [h0, zero_add, e]

/-- Every entry of `deg^(-1/2)` is a real number: the reciprocal square root of a positive count, or zero. -/
theorem isReal_dinv (x5 : IVec S2x640000 32) (i : S10000.Idx) : IsReal (val_main_v15 (F := Ideal) x5 i) := by
  obtain ⟨r, hr, e⟩ := deg_nonneg x5 i
  have h12 : val_main_v12 (F := Ideal) i = 0 := by
    rw [val_main_v12_apply, val_main_cst_1_apply, Ideal.ofBits_def, Ideal.ofBits_zero_f32]
  have hcmp : ∀ x y : Ideal .f32, FloatOps.cmpf (F := Ideal) .ogt x y = Ideal.cmp .ogt x y := fun _ _ => rfl
  rw [val_main_v15_apply, val_main_v13_apply, val_main_v14_apply, Ideal.hostUnary_rsqrt_def, hcmp, h12, e]
  by_cases hpos : 0 < r
  · have hc : Ideal.cmp .ogt (r : EReal) 0 = 1#1 := by
      have : (0 : EReal) < (r : EReal) := by exact_mod_cast hpos
      simp [Ideal.cmp, this]
    rw [hc, select_one, Ideal.rsqrt_coe, if_neg (not_lt.mpr hr), if_neg (ne_of_gt hpos)]
    exact isReal_coe _
  · have hr0 : r = 0 := le_antisymm (not_lt.mp hpos) hr
    have hc : Ideal.cmp .ogt (r : EReal) 0 = 0#1 := by
      subst hr0; simp [Ideal.cmp]
    rw [hc, select_zero, val_main_call0_v1_apply, val_main_call0_v0_apply, val_main_cst_2_apply, Ideal.ofBits_def,
      Ideal.ofBits_zero_f32]
    exact isReal_zero

/-- A gather reads SOME entry of its operand, whatever the start indices: it keeps an entrywise property. -/
theorem gather_isReal {s si t : Shape} {w : Nat} (d : GatherDims s si t) (x : s.Idx → EReal) (idx : IVec si w)
    (hx : ∀ i, IsReal (x i)) (j : t.Idx) : IsReal (Host.gather d x idx j) := by
  unfold Host.gather; exact hx _

/-- Every edge weight is a real number: a weight is the product of two entries of `deg^(-1/2)`, where `deg` counts updates
    (a sum of ones: a nonnegative real) and an entry is the reciprocal square root of a POSITIVE count, or zero. -/
theorem isReal_weight (x5 : IVec S2x640000 32) (e : S650000.Idx) : IsReal (val_main_v30 (F := Ideal) x5 e) := by
  rw [val_main_v30_apply, Ideal.mulf_def]
  refine IsReal.mul ?_ ?_
  · unfold val_main_v22; exact gather_isReal _ _ _ (isReal_dinv x5) e
  · unfold val_main_v29; exact gather_isReal _ _ _ (isReal_dinv x5) e

/-- A count below 10000, written as a 32-bit word and read signed, is itself. -/
theorem toInt_ofNat_lt (n : ℕ) (hn : n < 10000) : (BitVec.ofNat 32 n).toInt = (n : ℤ) := by
  rw [BitVec.toInt_eq_toNat_cond, BitVec.toNat_ofNat]
  have hm : n % 2 ^ 32 = n := Nat.mod_eq_of_lt (by omega)
  rw [hm]
  split <;> omega

/-- A two-piece edge-word array (640000 words of the edge array's row, then the counts 0 … 9999) holds node numbers
    when the row does. -/
theorem concat_range (row : S640000.Idx → BitVec 32) (hrow : ∀ i, 0 ≤ (row i).toInt ∧ (row i).toInt < 10000)
    (e : S650000.Idx) :
    0 ≤ (concatenate S650000 0 [⟨S640000, row⟩, ⟨S10000, val_main_v0 (F := Ideal)⟩]
          concatenates_S640000_S10000_S650000_d0 e).toInt
      ∧ (concatenate S650000 0 [⟨S640000, row⟩, ⟨S10000, val_main_v0 (F := Ideal)⟩]
          concatenates_S640000_S10000_S650000_d0 e).toInt < 10000 := by
  have he : (e 0).val < 650000 := (e 0).isLt
  by_cases hlt : (e 0).val < 640000
  · have E : concatenate S650000 0 [⟨S640000, row⟩, ⟨S10000, val_main_v0 (F := Ideal)⟩]
          concatenates_S640000_S10000_S650000_d0 e = row (ix1 ⟨(e 0).val, hlt⟩) :=
      concatenate_pair_apply_left (0 : Fin 1) row (val_main_v0 (F := Ideal)) concatenates_S640000_S10000_S650000_d0 e rfl
        (ix1 ⟨(e 0).val, hlt⟩) (fun b => match b with | ⟨0, _⟩ => rfl)
    rw [E]; exact hrow _
  · have hlt2 : (e 0).val - 640000 < 10000 := by omega
    have E : concatenate S650000 0 [⟨S640000, row⟩, ⟨S10000, val_main_v0 (F := Ideal)⟩]
          concatenates_S640000_S10000_S650000_d0 e = val_main_v0 (F := Ideal) (ix1 ⟨(e 0).val - 640000, hlt2⟩) :=
      concatenate_pair_apply_right (0 : Fin 1) row (val_main_v0 (F := Ideal)) concatenates_S640000_S10000_S650000_d0 e rfl rfl
        (ix1 ⟨(e 0).val - 640000, hlt2⟩) (fun b hb => absurd (Fin.ext (by have hb1 : b.val < 1 := b.isLt; show b.val = 0; omega)) hb)
        (by show (e 0).val - 640000 + 640000 = (e 0).val; omega)
    rw [E, val_main_v0_apply]
    show 0 ≤ (BitVec.ofNat 32 ((e 0).val - 640000)).toInt ∧ (BitVec.ofNat 32 ((e 0).val - 640000)).toInt < 10000
    rw [toInt_ofNat_lt _ hlt2]; omega

/-- The edge words' source half: the first 640000 are row 0 of the edge array, the last 10000 count 0 … 9999. -/
theorem src_range (x5 : IVec S2x640000 32) (h : ∀ i, 0 ≤ (x5 i).toInt ∧ (x5 i).toInt < 10000) (e : S650000.Idx) :
    0 ≤ (val_main_v3 (F := Ideal) x5 e).toInt ∧ (val_main_v3 (F := Ideal) x5 e).toInt < 10000 := by
  unfold val_main_v3
  exact concat_range _ (fun i => by rw [val_main_v2_apply, val_main_v1_apply]; exact h _) e

/-- The edge words' destination half: the first 640000 are row 1 of the edge array, the last 10000 count 0 … 9999. -/
theorem dst_range (x5 : IVec S2x640000 32) (h : ∀ i, 0 ≤ (x5 i).toInt ∧ (x5 i).toInt < 10000) (e : S650000.Idx) :
    0 ≤ (val_main_v6 (F := Ideal) x5 e).toInt ∧ (val_main_v6 (F := Ideal) x5 e).toInt < 10000 := by
  unfold val_main_v6
  exact concat_range _ (fun i => by rw [val_main_v5_apply, val_main_v4_apply]; exact h _) e

end Cert.ReferenceIdeal.RefEdges

end
-- ==== Proof.PreFacts.lean ====
/-
  The precondition, decoded: finite float inputs are real numbers; the two range tests on the edge array bound every word.
-/
import proofs.«402538_j62483184222721_2_alg».proof.Pre_finite_inputs
import proofs.«402538_j62483184222721_2_alg».proof.Proof.Spec
import Idealize.ShloMosaic.Lib.ReduceAll
import Idealize.ShloMosaic.Lib.Affine
import Idealize.ShloMosaic.Lib.StableHlo.Predicate
import Idealize.ShloMosaic.Lib.ValueIdx
import Idealize.ShloMosaic.PureOps.Ideal.Laws

set_option maxRecDepth 16384

noncomputable section

open scoped BigOperators

namespace Cert.PreFacts

open Idealize.ShloMosaic Idealize.ShloMosaic.ValueIdx Cert.Gcn

/-- The scalar shape has one index. -/
instance : Subsingleton Cert.Pre_finite_inputs.S_.Idx := ⟨fun a b => funext fun d => d.elim0⟩

/-- The pattern 0x7F800000 is plus infinity. -/
theorem ofBits_inf_f32 : Ideal.ofBits .f32 0x7F800000#32 = ⊤ := by simp [Ideal.ofBits, Ideal.ieee]

/-- An extended real whose absolute value is below plus infinity is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- The float test of the precondition, at one entry: `|x| < +inf` says the entry is a real number. -/
theorem isReal_of_test {s : Shape} (x c : FVec Ideal s .f32) (hc : ∀ i, c i = Ideal.ofBits .f32 0x7F800000#32) (i : s.Idx)
    (h : cmpf .olt (Host.absf x) c i = 1#1) : IsReal (x i) := by
  have h' : Ideal.cmp .olt (max (x i) (-(x i))) (c i) = 1#1 := h
  rw [hc i, ofBits_inf_f32] at h'
  exact isReal_of_abs_lt_top _ h'

/-- A scalar float constant broadcast to any shape is that constant at every index. -/
theorem bcast_const {t : Shape} (h : Cert.Pre_finite_inputs.S_.BroadcastsInDim t ![]) (b : BitVec 32) (i : t.Idx) :
    broadcastInDim t ![] h (constant (F := Ideal) Cert.Pre_finite_inputs.S_ .f32 b) i = Ideal.ofBits .f32 b := by
  unfold broadcastInDim constant; rfl

/-- A scalar word constant broadcast to any shape is that word at every index. -/
theorem bcast_constI {t : Shape} (h : Cert.Pre_finite_inputs.S_.BroadcastsInDim t ![]) (b : BitVec 32) (i : t.Idx) :
    broadcastInDim t ![] h (constantI Cert.Pre_finite_inputs.S_ 32 b) i = b := by
  unfold broadcastInDim constantI; rfl

/-- What the precondition says of the argument arrays at the ideal instance: every float entry is a real number, and every
    word of the edge array is a node number. -/
theorem facts_of_pre [Cert.Pre_finite_inputs.Facts] (x0 : Cert.Pre_finite_inputs.S10000x128.Idx → EReal) (x1 : Cert.Pre_finite_inputs.S128x128.Idx → EReal)
    (x2 : Cert.Pre_finite_inputs.S128.Idx → EReal) (x3 : Cert.Pre_finite_inputs.S128x64.Idx → EReal) (x4 : Cert.Pre_finite_inputs.S64.Idx → EReal)
    (x5 : IVec Cert.Pre_finite_inputs.S2x640000 32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, 0 ≤ (x5 i).toInt ∧ (x5 i).toInt < 10000) := by
  have h0 := congrFun h ValueIdx.ix0
  unfold Cert.Pre_finite_inputs.fn Cert.Pre_finite_inputs.fn_part1 at h0
  dsimp only at h0
  obtain ⟨h0, h30⟩ := IntOp.andi_eq_one.1 h0
  obtain ⟨h0, h26⟩ := IntOp.andi_eq_one.1 h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  refine ⟨fun i => ?_, fun i => ?_, fun i => ?_, fun i => ?_, fun i => ?_, fun i => ⟨?_, ?_⟩⟩
  · exact isReal_of_test x0 _ (bcast_const _ _) i (Host.reduce_andi_all _ _ _ _ _ h3 i)
  · exact isReal_of_test x1 _ (bcast_const _ _) i (Host.reduce_andi_all _ _ _ _ _ h7 i)
  · exact isReal_of_test x2 _ (bcast_const _ _) i (Host.reduce_andi_all _ _ _ _ _ h12 i)
  · exact isReal_of_test x3 _ (bcast_const _ _) i (Host.reduce_andi_all _ _ _ _ _ h17 i)
  · exact isReal_of_test x4 _ (bcast_const _ _) i (Host.reduce_andi_all _ _ _ _ _ h22 i)
  · have e := Host.reduce_andi_all _ _ _ _ _ h26 i
    have e' : IntOp.cmpi .sge (x5 i) 0#32 = 1#1 := by rw [← bcast_constI Cert.Pre_finite_inputs.Facts.bcast_S_S2x640000 0#32 i]; exact e
    have := IntOp.cmpi_sge.1 e'
    rwa [show (0#32 : BitVec 32).toInt = 0 from by decide] at this
  · have e := Host.reduce_andi_all _ _ _ _ _ h30 i
    have e' : IntOp.cmpi .slt (x5 i) 10000#32 = 1#1 := by rw [← bcast_constI Cert.Pre_finite_inputs.Facts.bcast_S_S2x640000 10000#32 i]; exact e
    have := IntOp.cmpi_slt.1 e'
    rwa [show (10000#32 : BitVec 32).toInt = 10000 from by decide] at this

end Cert.PreFacts

end
-- ==== Proof.lean ====
/-
  THE CLAIM: a two-layer graph convolution computed through a dense, padded, normalized adjacency (three matrix-product kernel
  regions) equals the edge-by-edge reference, over the extended reals, for finite float inputs and an edge array whose words are
  node numbers 0 … 9999.

  Both programs build from the edge array the same edge list (the given edges and one self-loop per node), the same in-degree
  table and the same weights `w e = deg^(-1/2)[src e] · deg^(-1/2)[dst e]`, operation for operation. The reference then, per layer,
  gathers the source node's row of `h = a · W`, scales it by `w e` and sums into the destination node's row. The kernel program
  instead adds every `w e` into a 10240 × 10240 matrix at (dst e, src e), pads the features with zero rows, and computes
  `adj · h` on the matrix unit, the second layer's `· W2` fused into the first aggregation. Index by index both are
      out[n, f] = (∑ over edges e ending at n of h[src e, f] · w e) + b[f]
  (`Cert.Gcn.G`): on the reference's side a re-indexing of the segment sum, on the kernel's side the law
  `(∑ e, w e) · h = ∑ e, w e · h`, which holds because every weight (a product of reciprocal square roots of positive counts) and
  every entry of `h` is a real number; columns of the matrix past 9999 receive no edge, so the padding never contributes.
  An edge word outside 0 … 9999 is where the two programs part (the reference's gather clamps it into its 10000 rows, the
  kernel's scatter places it among 10240 rows and columns): the precondition's range test on the edge array excludes it.
-/
import proofs.«402538_j62483184222721_2_alg».proof.Defs
import proofs.«402538_j62483184222721_2_alg».proof.Proof.Gen.Kernel
import proofs.«402538_j62483184222721_2_alg».proof.Proof.Gen.Kernel.Skeleton
import proofs.«402538_j62483184222721_2_alg».proof.Proof.Gen.Kernel.Launch
import proofs.«402538_j62483184222721_2_alg».proof.Proof.Gen.Kernel.Points
import proofs.«402538_j62483184222721_2_alg».proof.Proof.Gen.Kernel.Frame
import proofs.«402538_j62483184222721_2_alg».proof.Proof.Gen.KernelIdeal
import proofs.«402538_j62483184222721_2_alg».proof.Proof.Gen.KernelIdeal.Skeleton
import proofs.«402538_j62483184222721_2_alg».proof.Proof.Gen.KernelIdeal.Launch
import proofs.«402538_j62483184222721_2_alg».proof.Proof.Gen.KernelIdeal.Points
import proofs.«402538_j62483184222721_2_alg».proof.Proof.Gen.KernelIdeal.Frame
import proofs.«402538_j62483184222721_2_alg».proof.Proof.Gen.ReferenceIdeal
import proofs.«402538_j62483184222721_2_alg».proof.Proof.Gen.Pre_finite_inputs
import proofs.«402538_j62483184222721_2_alg».proof.Proof.KRun
import proofs.«402538_j62483184222721_2_alg».proof.Proof.KValue
import proofs.«402538_j62483184222721_2_alg».proof.Proof.RefRead
import proofs.«402538_j62483184222721_2_alg».proof.Proof.RefValue
import proofs.«402538_j62483184222721_2_alg».proof.Proof.RefEdges
import proofs.«402538_j62483184222721_2_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the network `G` of the arguments: the kernel's by the dense form's algebra, the reference's by re-indexing
    its segment sums; the precondition gives the real entries and the node-number edge words both need. -/
theorem algebraic : Cert.algebraic_KernelIdeal_ReferenceIdeal := by
  intro m ρ m' ρ' hpre hagree
  have hf := fun c : Dev Cert.KernelIdeal.nD => Cert.PreFacts.facts_of_pre _ _ _ _ _ _ (hpre c)
  refine ⟨fun c => Cert.Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (Cert.KernelIdeal.KValue.srcW (m ((c.tc : Thread Cert.KernelIdeal.nD Cert.KernelIdeal.τ).loc Cert.KernelIdeal.main_arg5))) (Cert.KernelIdeal.KValue.dstW (m ((c.tc : Thread Cert.KernelIdeal.nD Cert.KernelIdeal.τ).loc Cert.KernelIdeal.main_arg5)))
      (Cert.KernelIdeal.KValue.wgtW (m ((c.tc : Thread Cert.KernelIdeal.nD Cert.KernelIdeal.τ).loc Cert.KernelIdeal.main_arg5))), ?_, ?_⟩
  · refine (θ_run Cert.KernelIdeal.defs _ _).mono (fun r h c => ⟨(h c).1.trans ?_, (h c).2⟩) (Cert.KernelIdeal.KRun.run_result m ρ)
    obtain ⟨h0, h1, h2, h3, _, h5⟩ := hf c
    exact Cert.KernelIdeal.KValue.kernel_value m ρ c (Cert.ReferenceIdeal.RefEdges.src_range _ h5)
      (Cert.ReferenceIdeal.RefEdges.dst_range _ h5) (Cert.ReferenceIdeal.RefEdges.isReal_weight _) h0 h1 h2 h3
  · refine (θ_run Cert.ReferenceIdeal.defs _ _).mono (fun r h c => ⟨(h c).1.trans ?_, (h c).2⟩)
      (Cert.ReferenceIdeal.Value.run (F := Ideal) m' ρ')
    obtain ⟨_, _, _, _, _, h5⟩ := hf c
    rw [Cert.ReferenceIdeal.Read.val_main_v87_eq, (hagree c).1, (hagree c).2.1, (hagree c).2.2.1, (hagree c).2.2.2.1,
      (hagree c).2.2.2.2.1, (hagree c).2.2.2.2.2]
    exact Cert.ReferenceIdeal.RefValue.ref_value _ _ _ _ _ _ (Cert.ReferenceIdeal.RefEdges.src_range _ h5)
      (Cert.ReferenceIdeal.RefEdges.dst_range _ h5)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
